-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x5504 : Shape := ⟨2, ![4096, 5504]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8192x4096 .f32) (main_arg1 : IVec S4096x5504 32) (main_arg2 : FVec F S11008 .f32) (main_arg3 : FVec F S11008 .f32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8192x4096 : Shape := ⟨2, ![8192, 4096]⟩
abbrev S4096x5504 : Shape := ⟨2, ![4096, 5504]⟩
abbrev S11008 : Shape := ⟨1, ![11008]⟩
abbrev S_ : Shape := ⟨0, ![]⟩
abbrev S4096x5504x1 : Shape := ⟨3, ![4096, 5504, 1]⟩
abbrev S4096x5504x2 : Shape := ⟨3, ![4096, 5504, 2]⟩
abbrev S4096x11008 : Shape := ⟨2, ![4096, 11008]⟩
abbrev S1x11008 : Shape := ⟨2, ![1, 11008]⟩
abbrev S8192x11008 : Shape := ⟨2, ![8192, 11008]⟩
abbrev S1024x256 : Shape := ⟨2, ![1024, 256]⟩
abbrev S256x5504 : Shape := ⟨2, ![256, 5504]⟩
abbrev S1x5504 : Shape := ⟨2, ![1, 5504]⟩
abbrev S1024x5504 : Shape := ⟨2, ![1024, 5504]⟩
abbrev S1024x1 : Shape := ⟨2, ![1024, 1]⟩
abbrev S1024 : Shape := ⟨1, ![1024]⟩

abbrev nBuf : Space → Nat
  | .hbm => 37
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x5504, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S_, .i32⟩
  | .hbm, ⟨6, _⟩ => ⟨S4096x5504, .i32⟩
  | .hbm, ⟨7, _⟩ => ⟨S4096x5504, .i32⟩
  | .hbm, ⟨8, _⟩ => ⟨S_, .i32⟩
  | .hbm, ⟨9, _⟩ => ⟨S4096x5504, .i32⟩
  | .hbm, ⟨10, _⟩ => ⟨S4096x5504, .i32⟩
  | .hbm, ⟨11, _⟩ => ⟨S_, .i32⟩
  | .hbm, ⟨12, _⟩ => ⟨S4096x5504, .i32⟩
  | .hbm, ⟨13, _⟩ => ⟨S4096x5504, .i32⟩
  | .hbm, ⟨14, _⟩ => ⟨S_, .i32⟩
  | .hbm, ⟨15, _⟩ => ⟨S4096x5504, .i32⟩
  | .hbm, ⟨16, _⟩ => ⟨S4096x5504, .i32⟩
  | .hbm, ⟨17, _⟩ => ⟨S_, .i32⟩
  | .hbm, ⟨18, _⟩ => ⟨S4096x5504, .i32⟩
  | .hbm, ⟨19, _⟩ => ⟨S4096x5504, .i32⟩
  | .hbm, ⟨20, _⟩ => ⟨S_, .i32⟩
  | .hbm, ⟨21, _⟩ => ⟨S4096x5504, .i32⟩
  | .hbm, ⟨22, _⟩ => ⟨S4096x5504, .i32⟩
  | .hbm, ⟨23, _⟩ => ⟨S_, .i32⟩
  | .hbm, ⟨24, _⟩ => ⟨S4096x5504, .i32⟩
  | .hbm, ⟨25, _⟩ => ⟨S4096x5504, .i32⟩
  | .hbm, ⟨26, _⟩ => ⟨S4096x5504x1, .i32⟩
  | .hbm, ⟨27, _⟩ => ⟨S4096x5504x1, .i32⟩
  | .hbm, ⟨28, _⟩ => ⟨S4096x5504x2, .i32⟩
  | .hbm, ⟨29, _⟩ => ⟨S4096x11008, .i32⟩
  | .hbm, ⟨30, _⟩ => ⟨S4096x11008, .bf16⟩
  | .hbm, ⟨31, _⟩ => ⟨S8192x4096, .bf16⟩
  | .hbm, ⟨32, _⟩ => ⟨S1x11008, .f32⟩
  | .hbm, ⟨33, _⟩ => ⟨S11008, .f32⟩
  | .hbm, ⟨34, _⟩ => ⟨S1x11008, .f32⟩
  | .hbm, ⟨35, _⟩ => ⟨S1x11008, .f32⟩
  | .hbm, ⟨36, _⟩ => ⟨S8192x11008, .f32⟩
  | .local _ .vmem, ⟨0, _⟩ => ⟨S1024x256, .bf16⟩
  | .local _ .vmem, ⟨1, _⟩ => ⟨S1024x256, .bf16⟩
  | .local _ .vmem, ⟨2, _⟩ => ⟨S256x5504, .bf16⟩
  | .local _ .vmem, ⟨3, _⟩ => ⟨S256x5504, .bf16⟩
  | .local _ .vmem, ⟨4, _⟩ => ⟨S1x5504, .f32⟩
  | .local _ .vmem, ⟨5, _⟩ => ⟨S1x5504, .f32⟩
  | .local _ .vmem, ⟨6, _⟩ => ⟨S1x5504, .f32⟩
  | .local _ .vmem, ⟨7, _⟩ => ⟨S1x5504, .f32⟩
  | .local _ .vmem, ⟨8, _⟩ => ⟨S1x5504, .f32⟩
  | .local _ .vmem, ⟨9, _⟩ => ⟨S1x5504, .f32⟩
  | .local _ .vmem, ⟨10, _⟩ => ⟨S1024x5504, .f32⟩
  | .local _ .vmem, ⟨11, _⟩ => ⟨S1024x5504, .f32⟩
  | .local _ .vmem, ⟨12, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S4096x5504 : S_.BroadcastsInDim S4096x5504 (![] : Fin 0 → Fin S4096x5504.rank)
  bcast_S4096x5504_S4096x5504x1_0_1 : S4096x5504.BroadcastsInDim S4096x5504x1 (![0, 1] : Fin 2 → Fin S4096x5504x1.rank)
  concatenates_S4096x5504x1_S4096x5504x1_S4096x5504x2_d2 : Shape.Concatenates [S4096x5504x1, S4096x5504x1] S4096x5504x2 2
  shapeCasts_S4096x5504x2_S4096x11008 : S4096x5504x2.ShapeCasts S4096x11008
  bitsLt_bf16_f32 : FTy.bits .bf16 < FTy.bits .f32
  shapeCasts_S11008_S1x11008 : S11008.ShapeCasts S1x11008
  inb_S1024x5504_S1024x5504_0_0 : ∀ a, (![0, 0] : Fin 2 → Nat) a + S1024x5504.size a ≤ S1024x5504.size a
  h_S1024x5504 : 0 < S1024x5504.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x5504_S1024x5504 : S1024x5504.ShapeCasts S1024x5504
  inb_S256x5504_S256x5504_0_0 : ∀ a, (![0, 0] : Fin 2 → Nat) a + S256x5504.size a ≤ S256x5504.size a
  h_S256x5504 : 0 < S256x5504.numel
  shapeCasts_S256x5504_S256x5504 : S256x5504.ShapeCasts S256x5504
  reduces_S1024x256_S1024 : S1024x256.Reduces [1] S1024
  shapeCasts_S1024_S1024x1 : S1024.ShapeCasts S1024x1
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S1024x5504 : S1x5504.Broadcasts S1024x5504
  broadcasts_S1024x1_S1024x5504 : S1024x1.Broadcasts S1024x5504
  dot_S1024x256_S256x5504_S1024x5504_1_0_0_1_n_n_wf : DotDims.WF S1024x256 S256x5504 S1024x5504 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .bf16 = 32 ∨ (Rect.block (s := S8192x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x5504.size a ≤ S4096x11008.size a
  hwx0_1 : ∀ i : grid0.Coords, EltTy.bits .bf16 = 32 ∨ (Rect.block (s := S4096x11008) S256x5504.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5504.size a ≤ S1x11008.size a
  hwx0_3 : ∀ i : grid0.Coords, EltTy.bits .f32 = 32 ∨ (Rect.block (s := S1x11008) S1x5504.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5504.size a ≤ S1x11008.size a
  hwx0_4 : ∀ i : grid0.Coords, EltTy.bits .f32 = 32 ∨ (Rect.block (s := S1x11008) S1x5504.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x5504.size a ≤ S8192x11008.size a
  hwx0_5 : ∀ i : grid0.Coords, EltTy.bits .f32 = 32 ∨ (Rect.block (s := S8192x11008) S1024x5504.size (cc0_transform_5 i) (hinb0_5 i)).WholeWords (EltTy.packing .f32)

variable [Facts₀]

def dot_S1024x256_S256x5504_S1024x5504_1_0_0_1_n_n : DotDims S1024x256 S256x5504 S1024x5504 where
  lhsContracting := [1]
  rhsContracting := [0]
  lhsNonContracting := [0]
  rhsNonContracting := [1]
  lhsBatch := []
  rhsBatch := []
  wf := dot_S1024x256_S256x5504_S1024x5504_1_0_0_1_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x5504.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x5504.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x5504.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1024x5504.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x5504 : Shape := ⟨2, ![4096, 5504]⟩
abbrev S11008 : Shape := ⟨1, ![11008]⟩
abbrev S_ : Shape := ⟨0, ![]⟩
abbrev S4096x5504x1 : Shape := ⟨3, ![4096, 5504, 1]⟩
abbrev S4096x5504x2 : Shape := ⟨3, ![4096, 5504, 2]⟩
abbrev S4096x11008 : Shape := ⟨2, ![4096, 11008]⟩
abbrev S1x11008 : Shape := ⟨2, ![1, 11008]⟩
abbrev S8192x11008 : Shape := ⟨2, ![8192, 11008]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x5504, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S_, .i32⟩
  | .hbm, ⟨6, _⟩ => ⟨S4096x5504, .i32⟩
  | .hbm, ⟨7, _⟩ => ⟨S4096x5504, .i32⟩
  | .hbm, ⟨8, _⟩ => ⟨S_, .i32⟩
  | .hbm, ⟨9, _⟩ => ⟨S4096x5504, .i32⟩
  | .hbm, ⟨10, _⟩ => ⟨S4096x5504, .i32⟩
  | .hbm, ⟨11, _⟩ => ⟨S_, .i32⟩
  | .hbm, ⟨12, _⟩ => ⟨S4096x5504, .i32⟩
  | .hbm, ⟨13, _⟩ => ⟨S4096x5504, .i32⟩
  | .hbm, ⟨14, _⟩ => ⟨S_, .i32⟩
  | .hbm, ⟨15, _⟩ => ⟨S4096x5504, .i32⟩
  | .hbm, ⟨16, _⟩ => ⟨S4096x5504, .i32⟩
  | .hbm, ⟨17, _⟩ => ⟨S_, .i32⟩
  | .hbm, ⟨18, _⟩ => ⟨S4096x5504, .i32⟩
  | .hbm, ⟨19, _⟩ => ⟨S4096x5504, .i32⟩
  | .hbm, ⟨20, _⟩ => ⟨S_, .i32⟩
  | .hbm, ⟨21, _⟩ => ⟨S4096x5504, .i32⟩
  | .hbm, ⟨22, _⟩ => ⟨S4096x5504, .i32⟩
  | .hbm, ⟨23, _⟩ => ⟨S_, .i32⟩
  | .hbm, ⟨24, _⟩ => ⟨S4096x5504, .i32⟩
  | .hbm, ⟨25, _⟩ => ⟨S4096x5504, .i32⟩
  | .hbm, ⟨26, _⟩ => ⟨S4096x5504x1, .i32⟩
  | .hbm, ⟨27, _⟩ => ⟨S4096x5504x1, .i32⟩
  | .hbm, ⟨28, _⟩ => ⟨S4096x5504x2, .i32⟩
  | .hbm, ⟨29, _⟩ => ⟨S4096x11008, .i32⟩
  | .hbm, ⟨30, _⟩ => ⟨S4096x11008, .f32⟩
  | .hbm, ⟨31, _⟩ => ⟨S1x11008, .f32⟩
  | .hbm, ⟨32, _⟩ => ⟨S4096x11008, .f32⟩
  | .hbm, ⟨33, _⟩ => ⟨S4096x11008, .f32⟩
  | .hbm, ⟨34, _⟩ => ⟨S1x11008, .f32⟩
  | .hbm, ⟨35, _⟩ => ⟨S4096x11008, .f32⟩
  | .hbm, ⟨36, _⟩ => ⟨S4096x11008, .f32⟩
  | .hbm, ⟨37, _⟩ => ⟨S8192x11008, .f32⟩
  | .hbm, ⟨38, _⟩ => ⟨S1x11008, .f32⟩
  | .hbm, ⟨39, _⟩ => ⟨S8192x11008, .f32⟩
  | .hbm, ⟨40, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S4096x5504 : S_.BroadcastsInDim S4096x5504 (![] : Fin 0 → Fin S4096x5504.rank)
  bcast_S4096x5504_S4096x5504x1_0_1 : S4096x5504.BroadcastsInDim S4096x5504x1 (![0, 1] : Fin 2 → Fin S4096x5504x1.rank)
  concatenates_S4096x5504x1_S4096x5504x1_S4096x5504x2_d2 : Shape.Concatenates [S4096x5504x1, S4096x5504x1] S4096x5504x2 2
  shapeCasts_S4096x5504x2_S4096x11008 : S4096x5504x2.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Pieces.lean ====
/-
  What one run of the kernel body leaves in the output block and in the row-sum scratch, per control case, as values:
  the first contraction block resets both and accumulates once (case A), a middle block accumulates (case B), the last
  block accumulates and then stores the scaled sum (case C). Each is the body's stored value of the loaded blocks.
-/
import proofs.«404710_j78331613545153_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.DequantLinear.Pieces

open Cert.KernelIdeal Cert.KernelIdeal.Gen

variable {F : FTy → Type} [FloatOps F]

theorem hz : (![0, 0] : Fin 2 → Nat) = fun _ => 0 := funext fun a => by fin_cases a <;> rfl

/-- A middle contraction block: the output block holding `xo5` ends at `xo5 + x·q`. -/
theorem out_B (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : ¬cond0_0 i) (hc1 : ¬cond0_1 i) (x0 : Vec F S1024x256 .bf16) (x1 : Vec F S256x5504 .bf16) (x2 : Vec F S1x5504 .f32) (x3 : Vec F S1x5504 .f32) (x4 : Vec F S1x5504 .f32) (xo5 : Vec F S1024x5504 .f32) (xs0 : Vec F S1024x1 .f32) :
    out0_B_5 c i arg3 harg3 arg4 harg4 arg5 harg5 arg6 harg6 arg7 harg7 arg8 harg8 arg9 harg9 hc0 hc1 x0 x1 x2 x3 x4 xo5 xs0 = k0_pay4 x0 xo5 x1 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

/-- A middle contraction block: the row-sum scratch holding `xs0` ends at `xs0 + rowsum x`. -/
theorem rows_B (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : ¬cond0_0 i) (hc1 : ¬cond0_1 i) (x0 : Vec F S1024x256 .bf16) (x1 : Vec F S256x5504 .bf16) (x2 : Vec F S1x5504 .f32) (x3 : Vec F S1x5504 .f32) (x4 : Vec F S1x5504 .f32) (xo5 : Vec F S1024x5504 .f32) (xs0 : Vec F S1024x1 .f32) :
    sout0_B_0 c i arg3 harg3 arg4 harg4 arg5 harg5 arg6 harg6 arg7 harg7 arg8 harg8 arg9 harg9 hc0 hc1 x0 x1 x2 x3 x4 xo5 xs0 = k0_pay5 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

/-- The first contraction block: the output block is reset to zero and ends at `0 + x·q`. -/
theorem out_A (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : cond0_0 i) (hc1 : ¬cond0_1 i) (x0 : Vec F S1024x256 .bf16) (x1 : Vec F S256x5504 .bf16) (x2 : Vec F S1x5504 .f32) (x3 : Vec F S1x5504 .f32) (x4 : Vec F S1x5504 .f32) :
    out0_A_5 c i arg3 harg3 arg4 harg4 arg5 harg5 arg6 harg6 arg7 harg7 arg8 harg8 arg9 harg9 hc0 hc1 x0 x1 x2 x3 x4 = k0_pay4 x0 k0_pay1 x1 := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x5504) hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

/-- The first contraction block: the row-sum scratch is reset to zero and ends at `0 + rowsum x`. -/
theorem rows_A (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : cond0_0 i) (hc1 : ¬cond0_1 i) (x0 : Vec F S1024x256 .bf16) (x1 : Vec F S256x5504 .bf16) (x2 : Vec F S1x5504 .f32) (x3 : Vec F S1x5504 .f32) (x4 : Vec F S1x5504 .f32) :
    sout0_A_0 c i arg3 harg3 arg4 harg4 arg5 harg5 arg6 harg6 arg7 harg7 arg8 harg8 arg9 harg9 hc0 hc1 x0 x1 x2 x3 x4 = k0_pay5 x0 k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

/-- The last contraction block: the output block ends at the scaled sum of the accumulated block, the accumulated
    row sums, and the three per-column rows. -/
theorem out_C (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : ¬cond0_0 i) (hc1 : cond0_1 i) (x0 : Vec F S1024x256 .bf16) (x1 : Vec F S256x5504 .bf16) (x2 : Vec F S1x5504 .f32) (x3 : Vec F S1x5504 .f32) (x4 : Vec F S1x5504 .f32) (xo5 : Vec F S1024x5504 .f32) (xs0 : Vec F S1024x1 .f32) :
    out0_C_5 c i arg3 harg3 arg4 harg4 arg5 harg5 arg6 harg6 arg7 harg7 arg8 harg8 arg9 harg9 hc0 hc1 x0 x1 x2 x3 x4 xo5 xs0 = k0_pay6 (k0_pay4 x0 xo5 x1) x2 (k0_pay5 x0 xs0) x3 x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S1024x5504) hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

/-- The last contraction block: the row-sum scratch ends at `xs0 + rowsum x`. -/
theorem rows_C (c : Dev nD) (i : grid0.Coords) (arg3 : Memref sig .tc .vmem S1024x256 .bf16) (harg3 : arg3.IsWhole) (arg4 : Memref sig .tc .vmem S256x5504 .bf16) (harg4 : arg4.IsWhole) (arg5 : Memref sig .tc .vmem S1x5504 .f32) (harg5 : arg5.IsWhole) (arg6 : Memref sig .tc .vmem S1x5504 .f32) (harg6 : arg6.IsWhole) (arg7 : Memref sig .tc .vmem S1x5504 .f32) (harg7 : arg7.IsWhole) (arg8 : Memref sig .tc .vmem S1024x5504 .f32) (harg8 : arg8.IsWhole) (arg9 : Memref sig .tc .vmem S1024x1 .f32) (harg9 : arg9.IsWhole) (hc0 : ¬cond0_0 i) (hc1 : cond0_1 i) (x0 : Vec F S1024x256 .bf16) (x1 : Vec F S256x5504 .bf16) (x2 : Vec F S1x5504 .f32) (x3 : Vec F S1x5504 .f32) (x4 : Vec F S1x5504 .f32) (xo5 : Vec F S1024x5504 .f32) (xs0 : Vec F S1024x1 .f32) :
    sout0_C_0 c i arg3 harg3 arg4 harg4 arg5 harg5 arg6 harg6 arg7 harg7 arg8 harg8 arg9 harg9 hc0 hc1 x0 x1 x2 x3 x4 xo5 xs0 = k0_pay5 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread,
    View.readCov_unit_zero (S := S1024x5504) _ hz, View.readCov_unit_zero (S := S1024x1) _ hz,
    View.ld_unit_zero (S := S1024x256) hz, View.ld_unit_zero (S := S256x5504) hz, View.ld_unit_zero (S := S1x5504) hz, View.ld_unit_zero (S := S1024x5504) hz, View.ld_unit_zero (S := S1024x1) hz]

end Cert.DequantLinear.Pieces

end
-- ==== Proof.Payload.lean ====
import proofs.«404710_j78331613545153_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The body's five stored values, read at an index

At the ideal values (every float an extended real) each value the body stores is read here at one
index (p, n) of its block, as plain arithmetic of the loaded blocks at their own indices:

* the two resets store 0 everywhere;
* the accumulation stores a (p, n) + ∑ l, x (p, l) * q (l, n): the matrix product into a zero
  accumulator is the sum over the one contracted axis, added to the block already there;
* the row-sum accumulation stores s (p, 0) + ∑ l, x (p, l): a lane sum over axis 1, re-laid from
  [1024] to the column [1024, 1];
* the epilogue stores o (p, n) * sc (0, n) + s (p, 0) * os (0, n) + b (0, n): the row vectors
  [1, 5504] are repeated down the rows and the column [1024, 1] across the columns.
-/

noncomputable section

namespace Cert.DequantLinear.Payload

open Idealize.ShloMosaic Idealize.ShloMosaic.ValueIdx Cert.KernelIdeal Cert.KernelIdeal.Gen

/-! ## The two resets -/

/-- The block the first contraction step stores into the output is zero everywhere. -/
theorem zero_out (p : Fin 1024) (n : Fin 5504) : k0_pay1 (F := Ideal) (ix2 p n) = 0 := by
  unfold k0_pay1
  exact Ideal.ofBits_zero_f32

/-- The column the first contraction step stores into the row-sum scratch is zero everywhere. -/
theorem zero_rows (p : Fin 1024) (z : Fin 1) : k0_pay2 (F := Ideal) (ix2 p z) = 0 := by
  unfold k0_pay2
  rw [shapeCast_self]
  exact Ideal.ofBits_zero_f32

/-! ## The matrix product at an index

The product's dimension numbers contract axis 1 of the left operand with axis 0 of the right one and keep
axis 0 of the left and axis 1 of the right. The four lemmas below read the two operand indices, axis by
axis, at an output index and a contraction index. -/

theorem lhs_dot_0 (i : S1024x5504.Idx) (k : dot_S1024x256_S256x5504_S1024x5504_1_0_0_1_n_n.contr.Idx) :
    (dot_S1024x256_S256x5504_S1024x5504_1_0_0_1_n_n.lhsIdx i k 0).val = (i 0).val := by
  unfold DotDims.lhsIdx
  rw [dif_neg (show ¬(0 : Fin S1024x256.rank) ∈ dot_S1024x256_S256x5504_S1024x5504_1_0_0_1_n_n.lhsBatch by decide), dif_pos (show (0 : Fin S1024x256.rank) ∈ dot_S1024x256_S256x5504_S1024x5504_1_0_0_1_n_n.lhsNonContracting by decide)]
  rfl
theorem lhs_dot_1 (i : S1024x5504.Idx) (k : dot_S1024x256_S256x5504_S1024x5504_1_0_0_1_n_n.contr.Idx) :
    (dot_S1024x256_S256x5504_S1024x5504_1_0_0_1_n_n.lhsIdx i k 1).val = (k ⟨0, by decide⟩).val :=
  dot_S1024x256_S256x5504_S1024x5504_1_0_0_1_n_n.lhsIdx_val_of_single rfl i k
theorem rhs_dot_0 (i : S1024x5504.Idx) (k : dot_S1024x256_S256x5504_S1024x5504_1_0_0_1_n_n.contr.Idx) :
    (dot_S1024x256_S256x5504_S1024x5504_1_0_0_1_n_n.rhsIdx i k 0).val = (k ⟨0, by decide⟩).val :=
  dot_S1024x256_S256x5504_S1024x5504_1_0_0_1_n_n.rhsIdx_val_of_single rfl i k
theorem rhs_dot_1 (i : S1024x5504.Idx) (k : dot_S1024x256_S256x5504_S1024x5504_1_0_0_1_n_n.contr.Idx) :
    (dot_S1024x256_S256x5504_S1024x5504_1_0_0_1_n_n.rhsIdx i k 1).val = (i 1).val := by
  unfold DotDims.rhsIdx
  rw [dif_neg (show ¬(1 : Fin S256x5504.rank) ∈ dot_S1024x256_S256x5504_S1024x5504_1_0_0_1_n_n.rhsBatch by decide), dif_pos (show (1 : Fin S256x5504.rank) ∈ dot_S1024x256_S256x5504_S1024x5504_1_0_0_1_n_n.rhsNonContracting by decide)]
  rfl

/-- The product into a zero accumulator, at (p, n), is the sum over the contracted coordinate l of
    the left operand at (p, l) times the right operand at (l, n). -/
theorem matmul_at (x : FVec Ideal S1024x256 .bf16) (q : FVec Ideal S256x5504 .bf16) (p : Fin 1024) (n : Fin 5504) :
    matmul dot_S1024x256_S256x5504_S1024x5504_1_0_0_1_n_n none x q (constant (F := Ideal) S1024x5504 .f32 0x00000000#32) (ix2 p n)
      = ∑ l : Fin 256, x (ix2 p l) * q (ix2 l n) := by
  simp only [matmul]
  rw [Ideal.matmul_constant_zero_apply, ← Equiv.sum_comp (ValueIdx.contrEquiv1 dot_S1024x256_S256x5504_S1024x5504_1_0_0_1_n_n 256 rfl rfl).symm]
  refine Finset.sum_congr rfl fun l _ => ?_
  have hl := ValueIdx.contrEquiv1_symm_val dot_S1024x256_S256x5504_S1024x5504_1_0_0_1_n_n 256 rfl rfl l
  have el : dot_S1024x256_S256x5504_S1024x5504_1_0_0_1_n_n.lhsIdx (ix2 p n) ((ValueIdx.contrEquiv1 dot_S1024x256_S256x5504_S1024x5504_1_0_0_1_n_n 256 rfl rfl).symm l) = ix2 p l := funext fun a => Fin.ext (by
    match a with
    | ⟨0, _⟩ => exact lhs_dot_0 _ _
    | ⟨1, _⟩ => exact (lhs_dot_1 _ _).trans hl)
  have er : dot_S1024x256_S256x5504_S1024x5504_1_0_0_1_n_n.rhsIdx (ix2 p n) ((ValueIdx.contrEquiv1 dot_S1024x256_S256x5504_S1024x5504_1_0_0_1_n_n 256 rfl rfl).symm l) = ix2 l n := funext fun a => Fin.ext (by
    match a with
    | ⟨0, _⟩ => exact (rhs_dot_0 _ _).trans hl
    | ⟨1, _⟩ => exact rhs_dot_1 _ _)
  rw [el, er]

/-- The accumulation step's stored block: the block already there plus the product of the two loaded
    blocks, index by index. -/
theorem acc_out (x : Vec Ideal S1024x256 .bf16) (a : Vec Ideal S1024x5504 .f32) (q : Vec Ideal S256x5504 .bf16) (p : Fin 1024) (n : Fin 5504) :
    k0_pay4 (F := Ideal) x a q (ix2 p n) = a (ix2 p n) + ∑ l : Fin 256, x (ix2 p l) * q (ix2 l n) := by
  unfold k0_pay4 k0_pay3
  simp only [shapeCast_self]
  exact congrArg (a (ix2 p n) + ·) (matmul_at x q p n)

/-! ## The row sums at an index -/

/-- A vector [1024] re-laid as the column [1024, 1] reads, at (p, z), the vector at p: the two
    row-major positions are p * 1 + z and p, and z is 0. -/
theorem column_of_vector {α : Type} (v : S1024.Idx → α) (h : S1024.ShapeCasts S1024x1) (p : Fin 1024) (z : Fin 1) :
    shapeCast S1024x1 v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- The lane sum over axis 1 of a [1024, 256] block, at p, is the sum over l of the block at (p, l). -/
theorem lane_sum_at (y : FVec Ideal S1024x256 .f32) (h : S1024x256.Reduces [1] S1024) (hφ : FKind.Formats .f32)
    (hacc : (0x00000000#32 : BitVec 32) = FKind.add.neutral .f32 hφ) (p : Fin 1024) :
    multiReduction (F := Ideal) .add [1] S1024 y 0x00000000#32 h hφ hacc (ix1 p) = ∑ l : Fin 256, y (ix2 p l) := by
  refine (Ideal.multiReduction_add_single y 0x00000000#32 h hφ hacc (ix1 p)).trans ?_
  refine Finset.sum_congr rfl fun l _ => congrArg y ?_
  funext a
  refine Fin.ext ?_
  match a with
  | ⟨0, _⟩ => rfl
  | ⟨1, _⟩ => rfl

/-- The row-sum step's stored column: the column already there plus the sum of the loaded block's row. -/
theorem acc_rows (x : Vec Ideal S1024x256 .bf16) (s : Vec Ideal S1024x1 .f32) (p : Fin 1024) (z : Fin 1) :
    k0_pay5 (F := Ideal) x s (ix2 p z) = s (ix2 p z) + ∑ l : Fin 256, x (ix2 p l) := by
  unfold k0_pay5 k0_pay3
  simp only [shapeCast_self]
  refine congrArg (s (ix2 p z) + ·) ?_
  refine (column_of_vector _ _ p z).trans ?_
  exact lane_sum_at _ _ _ _ p

/-! ## The epilogue at an index -/

/-- A column [1024, 1] repeated across 5504 columns reads, at (p, n), the column at (p, 0). -/
theorem column_across {α : Type} (v : S1024x1.Idx → α) (h : S1024x1.Broadcasts S1024x5504) (p : Fin 1024) (n : Fin 5504) :
    broadcastTo S1024x5504 v h (ix2 p n) = v (ix2 p (0 : Fin 1)) := by
  refine broadcastTo_apply v h (ix2 p n) (ix2 p (0 : Fin 1)) fun ax => ?_
  match ax with
  | ⟨0, _⟩ =>
    show p.val = if (1024 : Nat) = 1 then 0 else p.val
    rw [if_neg (by decide)]
  | ⟨1, _⟩ => rfl

/-- The value the last contraction step stores: the accumulated product scaled column by column, plus the
    row sum times the scaled offset, plus the bias. -/
theorem epilogue (o : Vec Ideal S1024x5504 .f32) (sc : Vec Ideal S1x5504 .f32) (s : Vec Ideal S1024x1 .f32) (os b : Vec Ideal S1x5504 .f32) (p : Fin 1024) (n : Fin 5504) :
    k0_pay6 (F := Ideal) o sc s os b (ix2 p n) = o (ix2 p n) * sc (ix2 0 n) + s (ix2 p 0) * os (ix2 0 n) + b (ix2 0 n) := by
  unfold k0_pay6
  simp only [shapeCast_self]
  show o (ix2 p n) * broadcastTo S1024x5504 sc broadcasts_S1x5504_S1024x5504 (ix2 p n)
      + broadcastTo S1024x5504 s broadcasts_S1024x1_S1024x5504 (ix2 p n) * broadcastTo S1024x5504 os broadcasts_S1x5504_S1024x5504 (ix2 p n)
      + broadcastTo S1024x5504 b broadcasts_S1x5504_S1024x5504 (ix2 p n) = _
  rw [broadcastTo_1b_ab_apply sc, broadcastTo_1b_ab_apply os, broadcastTo_1b_ab_apply b, column_across s]

end Cert.DequantLinear.Payload

end
-- ==== Proof.Blocks.lean ====
/-
  The input blocks and the host glue of the four-bit-weight linear layer, at the extended reals.

  The region's five input windows are read at a coordinate inside their block: the block at grid point `t` of the
  grid (8, 2, 16) is the window's array at the block's offset (row block `t / 32`, column block `t / 16 % 2`,
  contraction block `t % 16`, each times the block's extent) plus the coordinate. The arrays the windows read are
  written by host operations before the region; each is read at an index from the program's arguments: the
  activations (a format change, the identity on extended reals), the unpacked integer weights converted to a float,
  and the scale, the offset times the scale and the bias as rows of shape [1, 11008].
-/
import proofs.«404710_j78331613545153_3_alg».proof.Proof.Gen.KernelIdeal.Frame
import proofs.«404710_j78331613545153_3_alg».proof.Proof.Gen.ReferenceIdeal.Read
import Idealize.ShloMosaic.Lib.ValueIdx
import Idealize.ShloMosaic.Lib.Pipeline.Value
import Idealize.ShloMosaic.Lib.StableHlo.Run

set_option maxRecDepth 16384

noncomputable section

namespace Cert.DequantLinear.Blocks

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-! ## The index maps over the grid

Point `t` of the grid (8, 2, 16) has row block `t / 32`, column block `t / 16 % 2` and contraction block
`t % 16`. -/

theorem idx0 : ∀ t : Fin cfg0.N, win0_0.index t 0 = t.val / 32 ∧ win0_0.index t 1 = t.val % 16 :=
  (by decide +kernel : ∀ t : Fin grid0.N, _)

theorem idx1 : ∀ t : Fin cfg0.N, win0_1.index t 0 = t.val % 16 ∧ win0_1.index t 1 = t.val / 16 % 2 :=
  (by decide +kernel : ∀ t : Fin grid0.N, _)

theorem idx2 : ∀ t : Fin cfg0.N, win0_2.index t 0 = 0 ∧ win0_2.index t 1 = t.val / 16 % 2 :=
  (by decide +kernel : ∀ t : Fin grid0.N, _)

theorem idx3 : ∀ t : Fin cfg0.N, win0_3.index t 0 = 0 ∧ win0_3.index t 1 = t.val / 16 % 2 :=
  (by decide +kernel : ∀ t : Fin grid0.N, _)

theorem idx4 : ∀ t : Fin cfg0.N, win0_4.index t 0 = 0 ∧ win0_4.index t 1 = t.val / 16 % 2 :=
  (by decide +kernel : ∀ t : Fin grid0.N, _)

/-! ## The input blocks read at a coordinate

Each is the window's array at the block's offset plus the coordinate inside the block. -/

/-- The activation block: rows `1024 (t / 32) + p`, contraction positions `256 (t % 16) + l`. -/
theorem xblk_apply (c : Dev nD) (t : Fin cfg0.N) (p : Fin 1024) (l : Fin 256) :
    (iblk m c 0 t : Vec Ideal S1024x256 .bf16) (ix2 p l)
      = (V m c main_v19 : Vec Ideal S8192x4096 .bf16)
          (ix2 (⟨t.val / 32 * 1024 + p.val, by have := t.isLt; have : cfg0.N = 256 := N_0; omega⟩ : Fin 8192)
               (⟨t.val % 16 * 256 + l.val, by have := t.isLt; have : cfg0.N = 256 := N_0; omega⟩ : Fin 4096)) := by
  unfold iblk
  rw [View.read_apply]
  refine congrArg (V m c main_v19 : Vec Ideal S8192x4096 .bf16) (funext fun a => Fin.ext ?_)
  match a with
  | ⟨0, _⟩ => show win0_0.index t 0 * 1024 + 1 * p.val = t.val / 32 * 1024 + p.val; rw [(idx0 t).1]; omega
  | ⟨1, _⟩ => show win0_0.index t 1 * 256 + 1 * l.val = t.val % 16 * 256 + l.val; rw [(idx0 t).2]; omega

/-- The weight block: contraction positions `256 (t % 16) + l`, columns `5504 (t / 16 % 2) + n`. -/
theorem qblk_apply (c : Dev nD) (t : Fin cfg0.N) (l : Fin 256) (n : Fin 5504) :
    (iblk m c 1 t : Vec Ideal S256x5504 .bf16) (ix2 l n)
      = (V m c main_v18 : Vec Ideal S4096x11008 .bf16)
          (ix2 (⟨t.val % 16 * 256 + l.val, by have := t.isLt; have : cfg0.N = 256 := N_0; omega⟩ : Fin 4096)
               (⟨t.val / 16 % 2 * 5504 + n.val, by have := t.isLt; have : cfg0.N = 256 := N_0; omega⟩ : Fin 11008)) := by
  unfold iblk
  rw [View.read_apply]
  refine congrArg (V m c main_v18 : Vec Ideal S4096x11008 .bf16) (funext fun a => Fin.ext ?_)
  match a with
  | ⟨0, _⟩ => show win0_1.index t 0 * 256 + 1 * l.val = t.val % 16 * 256 + l.val; rw [(idx1 t).1]; omega
  | ⟨1, _⟩ => show win0_1.index t 1 * 5504 + 1 * n.val = t.val / 16 % 2 * 5504 + n.val; rw [(idx1 t).2]; omega

/-- The scale block: the one row, columns `5504 (t / 16 % 2) + n`. -/
theorem sblk_apply (c : Dev nD) (t : Fin cfg0.N) (z : Fin 1) (n : Fin 5504) :
    (iblk m c 2 t : Vec Ideal S1x5504 .f32) (ix2 z n)
      = (V m c main_v20 : Vec Ideal S1x11008 .f32)
          (ix2 (0 : Fin 1)
               (⟨t.val / 16 % 2 * 5504 + n.val, by have := t.isLt; have : cfg0.N = 256 := N_0; omega⟩ : Fin 11008)) := by
  unfold iblk
  rw [View.read_apply]
  refine congrArg (V m c main_v20 : Vec Ideal S1x11008 .f32) (funext fun a => Fin.ext ?_)
  match a with
  | ⟨0, _⟩ => show win0_2.index t 0 * 1 + 1 * z.val = 0; rw [(idx2 t).1]; omega
  | ⟨1, _⟩ => show win0_2.index t 1 * 5504 + 1 * n.val = t.val / 16 % 2 * 5504 + n.val; rw [(idx2 t).2]; omega

/-- The block of offset times scale: the one row, columns `5504 (t / 16 % 2) + n`. -/
theorem osblk_apply (c : Dev nD) (t : Fin cfg0.N) (z : Fin 1) (n : Fin 5504) :
    (iblk m c 3 t : Vec Ideal S1x5504 .f32) (ix2 z n)
      = (V m c main_v22 : Vec Ideal S1x11008 .f32)
          (ix2 (0 : Fin 1)
               (⟨t.val / 16 % 2 * 5504 + n.val, by have := t.isLt; have : cfg0.N = 256 := N_0; omega⟩ : Fin 11008)) := by
  unfold iblk
  rw [View.read_apply]
  refine congrArg (V m c main_v22 : Vec Ideal S1x11008 .f32) (funext fun a => Fin.ext ?_)
  match a with
  | ⟨0, _⟩ => show win0_3.index t 0 * 1 + 1 * z.val = 0; rw [(idx3 t).1]; omega
  | ⟨1, _⟩ => show win0_3.index t 1 * 5504 + 1 * n.val = t.val / 16 % 2 * 5504 + n.val; rw [(idx3 t).2]; omega

/-- The bias block: the one row, columns `5504 (t / 16 % 2) + n`. -/
theorem bblk_apply (c : Dev nD) (t : Fin cfg0.N) (z : Fin 1) (n : Fin 5504) :
    (iblk m c 4 t : Vec Ideal S1x5504 .f32) (ix2 z n)
      = (V m c main_v23 : Vec Ideal S1x11008 .f32)
          (ix2 (0 : Fin 1)
               (⟨t.val / 16 % 2 * 5504 + n.val, by have := t.isLt; have : cfg0.N = 256 := N_0; omega⟩ : Fin 11008)) := by
  unfold iblk
  rw [View.read_apply]
  refine congrArg (V m c main_v23 : Vec Ideal S1x11008 .f32) (funext fun a => Fin.ext ?_)
  match a with
  | ⟨0, _⟩ => show win0_4.index t 0 * 1 + 1 * z.val = 0; rw [(idx4 t).1]; omega
  | ⟨1, _⟩ => show win0_4.index t 1 * 5504 + 1 * n.val = t.val / 16 % 2 * 5504 + n.val; rw [(idx4 t).2]; omega

/-! ## The host glue before the region, read at an index -/

/-- The activations: the cast to the narrower format is the identity on extended reals. -/
theorem V_x (c : Dev nD) (r : Fin 8192) (u : Fin 4096) :
    (V m c main_v19 : Vec Ideal S8192x4096 .bf16) (ix2 r u) = m ((c : Thread nD τ).loc main_arg0) (ix2 r u) := by
  have e : (V m c main_v19 : S8192x4096.Idx → EReal)
      = (truncf .bf16 (m ((c : Thread nD τ).loc main_arg0) : FVec Ideal S8192x4096 .f32) bitsLt_bf16_f32 : FVec Ideal S8192x4096 .bf16) := by
    dsimp only [V, hostOps0]; after_results
  rw [e]; rfl

/-- A row vector made from a flat one by a reshape reads the flat one at the column. -/
theorem row_apply (x : FVec Ideal S11008 .f32) (n : Fin 11008) :
    shapeCast S1x11008 x shapeCasts_S11008_S1x11008 (ix2 (0 : Fin 1) n) = x (ix1 n) :=
  shapeCast_apply x shapeCasts_S11008_S1x11008 (ix2 (0 : Fin 1) n) (ix1 n) (by
    rw [Shape.rowMajor_val_one, Shape.rowMajor_val_two]; show n.val = 0 * 11008 + n.val; omega)

/-- The scale as a row. -/
theorem V_s (c : Dev nD) (n : Fin 11008) :
    (V m c main_v20 : Vec Ideal S1x11008 .f32) (ix2 (0 : Fin 1) n) = m ((c : Thread nD τ).loc main_arg2) (ix1 n) := by
  have e : (V m c main_v20 : S1x11008.Idx → EReal)
      = shapeCast S1x11008 (m ((c : Thread nD τ).loc main_arg2) : FVec Ideal S11008 .f32) shapeCasts_S11008_S1x11008 := by
    dsimp only [V, hostOps0]; after_results; rfl
  rw [e]
  exact row_apply _ n

/-- The offset times the scale, as a row. -/
theorem V_os (c : Dev nD) (n : Fin 11008) :
    (V m c main_v22 : Vec Ideal S1x11008 .f32) (ix2 (0 : Fin 1) n)
      = HMul.hMul (α := EReal) (β := EReal) (γ := EReal)
          (m ((c : Thread nD τ).loc main_arg3) (ix1 n)) (m ((c : Thread nD τ).loc main_arg2) (ix1 n)) := by
  have e : (V m c main_v22 : S1x11008.Idx → EReal)
      = (shapeCast S1x11008 (mulf (F := Ideal) (m ((c : Thread nD τ).loc main_arg3) : FVec Ideal S11008 .f32)
          (m ((c : Thread nD τ).loc main_arg2) : FVec Ideal S11008 .f32)) shapeCasts_S11008_S1x11008 : FVec Ideal S1x11008 .f32) := by
    dsimp only [V, hostOps0]; after_results; rfl
  rw [e]
  exact (row_apply _ n).trans (mulf_apply _ _ _)

/-- The bias as a row. -/
theorem V_b (c : Dev nD) (n : Fin 11008) :
    (V m c main_v23 : Vec Ideal S1x11008 .f32) (ix2 (0 : Fin 1) n) = m ((c : Thread nD τ).loc main_arg4) (ix1 n) := by
  have e : (V m c main_v23 : S1x11008.Idx → EReal)
      = shapeCast S1x11008 (m ((c : Thread nD τ).loc main_arg4) : FVec Ideal S11008 .f32) shapeCasts_S11008_S1x11008 := by
    dsimp only [V, hostOps0]; after_results; rfl
  rw [e]
  exact row_apply _ n

/-- The weights: the signed integer of the unpacked four-bit array, as an extended real. The unpacking
    (low nibble and high nibble, each sign-extended by `(v xor 8) - 8`, interleaved along a new last axis and
    flattened to 11008 columns) is the same chain of operations as the reference's unpacking stage, so the two terms
    agree once that stage's definitions are unfolded. -/
theorem V_q (c : Dev nD) (u : Fin 4096) (n : Fin 11008) :
    (V m c main_v18 : Vec Ideal S4096x11008 .bf16) (ix2 u n)
      = (((Cert.ReferenceIdeal.Read.val_main_v17 (F := Ideal) (m ((c : Thread nD τ).loc main_arg1)) (ix2 u n)).toInt : ℝ) : EReal) := by
  have e : (V m c main_v18 : S4096x11008.Idx → EReal)
      = (sitofp .bf16 (Cert.ReferenceIdeal.Read.val_main_v17 (F := Ideal) (m ((c : Thread nD τ).loc main_arg1))) : FVec Ideal S4096x11008 .bf16) := by
    dsimp only [V, hostOps0]; after_results
    simp only [Cert.ReferenceIdeal.Read.val_main_v17, Cert.ReferenceIdeal.Read.val_main_v16, Cert.ReferenceIdeal.Read.val_main_v15,
      Cert.ReferenceIdeal.Read.val_main_v14, Cert.ReferenceIdeal.Read.val_main_v13, Cert.ReferenceIdeal.Read.val_main_v12,
      Cert.ReferenceIdeal.Read.val_main_v11, Cert.ReferenceIdeal.Read.val_main_v10, Cert.ReferenceIdeal.Read.val_main_v9,
      Cert.ReferenceIdeal.Read.val_main_v8, Cert.ReferenceIdeal.Read.val_main_v7, Cert.ReferenceIdeal.Read.val_main_v6,
      Cert.ReferenceIdeal.Read.val_main_v5, Cert.ReferenceIdeal.Read.val_main_v4, Cert.ReferenceIdeal.Read.val_main_v3,
      Cert.ReferenceIdeal.Read.val_main_v2, Cert.ReferenceIdeal.Read.val_main_v1, Cert.ReferenceIdeal.Read.val_main_v0,
      Cert.ReferenceIdeal.Read.val_main_c, Cert.ReferenceIdeal.Read.val_main_c_0, Cert.ReferenceIdeal.Read.val_main_c_1,
      Cert.ReferenceIdeal.Read.val_main_c_2, Cert.ReferenceIdeal.Read.val_main_c_3, Cert.ReferenceIdeal.Read.val_main_c_4,
      Cert.ReferenceIdeal.Read.val_main_c_5]
    rfl
  rw [e]; rfl

end Cert.DequantLinear.Blocks

end
-- ==== Proof.BlockSums.lean ====
/-
  Sums over the contraction axis taken block by block.

  The contraction axis of length 4096 is walked in sixteen blocks of 256 columns: column `256·kk + l` is `col kk l`.
  `upto k g` is the sum of the per-block terms `g 0 + … + g k`; it grows by one term per block and after block 15 it is
  the sum over all sixteen blocks, which is the sum over all 4096 columns (`sum_cols`).
  The law that joins the two programs (`dequant_law`): over the reals

      (∑ᵤ xᵤ·qᵤ)·s + (∑ᵤ xᵤ)·(o·s) + b  =  ∑ᵤ xᵤ·((qᵤ + o)·s) + b

  — distributivity, which is why every factor has to be a real number and not an infinity.
-/
import Mathlib.Data.EReal.Basic
import Mathlib.Algebra.BigOperators.Fin
import Mathlib.Algebra.BigOperators.Ring.Finset
import Mathlib.Logic.Equiv.Fin.Basic
import Mathlib.Tactic.Ring

open scoped BigOperators

namespace Cert.DequantLinear

/-- Column `256·kk + l` of the contraction axis: column `l` of block `kk`. -/
def col (kk : Fin 16) (l : Fin 256) : Fin 4096 := ⟨kk.val * 256 + l.val, by omega⟩

theorem col_val (kk : Fin 16) (l : Fin 256) : (col kk l).val = kk.val * 256 + l.val := rfl

section Upto
variable {M : Type*} [AddCommMonoid M]

/-- The per-block terms summed over blocks `0 … k`. -/
def upto (k : ℕ) (g : Fin 16 → M) : M := ∑ kk : Fin 16, if kk.val ≤ k then g kk else 0

theorem upto_zero (g : Fin 16 → M) : upto 0 g = g 0 := by
  unfold upto
  rw [Finset.sum_eq_single (0 : Fin 16)]
  · exact if_pos (Nat.le_refl 0)
  · intro b _ hb
    rw [if_neg]
    intro h
    exact hb (Fin.ext (by have : b.val = 0 := Nat.le_zero.mp h; simpa using this))
  · intro h; exact absurd (Finset.mem_univ _) h

theorem upto_succ (k : ℕ) (h : k + 1 < 16) (g : Fin 16 → M) : upto (k + 1) g = upto k g + g ⟨k + 1, h⟩ := by
  unfold upto
  have e : ∀ kk : Fin 16, (if kk.val ≤ k + 1 then g kk else 0)
      = (if kk.val ≤ k then g kk else 0) + (if kk = ⟨k + 1, h⟩ then g kk else 0) := by
    intro kk
    by_cases h1 : kk.val ≤ k
    · rw [if_pos h1, if_pos (by omega), if_neg (fun e => by rw [e] at h1; simp at h1), add_zero]
    · by_cases h2 : kk.val = k + 1
      · rw [if_neg h1, if_pos (by omega), if_pos (Fin.ext h2), zero_add]
      · rw [if_neg h1, if_neg (by omega), if_neg (fun e => h2 (by rw [e])), add_zero]
  simp only [e, Finset.sum_add_distrib, Finset.sum_ite_eq', Finset.mem_univ, if_true]

theorem upto_last (g : Fin 16 → M) : upto 15 g = ∑ kk : Fin 16, g kk := by
  unfold upto
  exact Finset.sum_congr rfl fun kk _ => if_pos (by have := kk.isLt; omega)

/-- Sixteen blocks of 256 columns are the 4096 columns. -/
theorem sum_cols (f : Fin 4096 → M) : ∑ kk : Fin 16, ∑ l : Fin 256, f (col kk l) = ∑ u : Fin 4096, f u := by
  rw [← Fintype.sum_prod_type' (f := fun kk l => f (col kk l))]
  rw [← Equiv.sum_comp (finProdFinEquiv (m := 16) (n := 256)) f]
  refine Finset.sum_congr rfl fun p _ => congrArg f (Fin.ext ?_)
  show p.1.val * 256 + p.2.val = p.2.val + 256 * p.1.val
  omega

end Upto

/-- A finite sum of reals, read as an extended real, is the sum of the terms read so. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: scaling the integer product and adding the row sum times `offset·scale` is the product
    with the dequantized weights. -/
theorem dequant_law_real (x q : Fin 4096 → ℝ) (s o b : ℝ) :
    (∑ kk : Fin 16, ∑ l : Fin 256, x (col kk l) * q (col kk l)) * s + (∑ kk : Fin 16, ∑ l : Fin 256, x (col kk l)) * (o * s) + b
      = (∑ u : Fin 4096, x u * ((q u + o) * s)) + b := by
  rw [sum_cols (fun u => x u * q u), sum_cols x, Finset.sum_mul, Finset.sum_mul, ← Finset.sum_add_distrib]
  congr 1
  exact Finset.sum_congr rfl fun u _ => by ring

/-- The same over the extended reals, for finite entries. -/
theorem dequant_law (X Q : Fin 4096 → EReal) (S O B : EReal)
    (hX : ∀ u, ∃ r : ℝ, X u = (r : EReal)) (hQ : ∀ u, ∃ r : ℝ, Q u = (r : EReal))
    (hS : ∃ r : ℝ, S = (r : EReal)) (hO : ∃ r : ℝ, O = (r : EReal)) (hB : ∃ r : ℝ, B = (r : EReal)) :
    (upto 15 fun kk => ∑ l : Fin 256, X (col kk l) * Q (col kk l)) * S + (upto 15 fun kk => ∑ l : Fin 256, X (col kk l)) * (O * S) + B
      = (∑ u : Fin 4096, X u * ((Q u + O) * S)) + B := by
  choose x hx using hX
  choose q hq using hQ
  obtain ⟨s, rfl⟩ := hS
  obtain ⟨o, rfl⟩ := hO
  obtain ⟨b, rfl⟩ := hB
  rw [upto_last, upto_last]
  simp only [hx, hq, ← EReal.coe_mul, ← EReal.coe_add, ← coe_sum]
  exact congrArg _ (dequant_law_real x q s o b)

end Cert.DequantLinear
-- ==== Proof.Accumulate.lean ====
/-
  The accumulation over the sixteen contraction blocks of one output block.

  The 256 grid points are sixteen groups of sixteen: group `g` works on rows `1024·(g/2) …` and columns
  `5504·(g%2) …` of the result, and its point `k` adds contraction block `k`. After point `k < 15` of the group the
  output block holds the partial products summed over blocks `0 … k` and the scratch column the partial row sums; after
  point 15 the output block holds `(∑ x·q)·s + (∑ x)·(o·s) + b`. By induction on `k` inside a group.
-/
import proofs.«404710_j78331613545153_3_alg».proof.Proof.Pieces
import proofs.«404710_j78331613545153_3_alg».proof.Proof.Payload
import proofs.«404710_j78331613545153_3_alg».proof.Proof.Blocks
import proofs.«404710_j78331613545153_3_alg».proof.Proof.BlockSums

set_option maxRecDepth 16384

noncomputable section

open Idealize.ShloMosaic Idealize.ShloMosaic.TcCoe Idealize.SL.Sem Idealize.ShloMosaic.ValueIdx
open scoped BigOperators

namespace Cert.DequantLinear.Accumulate

open Cert.KernelIdeal Cert.KernelIdeal.Gen Cert.DequantLinear

variable (m : (ℓ : Loc nD τ sig) → Buf (Elt Ideal) ℓ)

/-- The arrays the region finds: activations, integer weights as floats, scale, offset·scale, bias. -/
abbrev X (c : Dev nD) : S8192x4096.Idx → EReal := V m c main_v19
abbrev Q (c : Dev nD) : S4096x11008.Idx → EReal := V m c main_v18
abbrev Sc (c : Dev nD) : S1x11008.Idx → EReal := V m c main_v20
abbrev OSc (c : Dev nD) : S1x11008.Idx → EReal := V m c main_v22
abbrev Bi (c : Dev nD) : S1x11008.Idx → EReal := V m c main_v23

/-- Row `p` of group `g`'s output block is row `1024·(g/2) + p` of the result. -/
def rowOf (g : Fin 16) (p : Fin 1024) : Fin 8192 := ⟨g.val / 2 * 1024 + p.val, by have := g.isLt; have := p.isLt; omega⟩
/-- Column `q` of group `g`'s output block is column `5504·(g%2) + q` of the result. -/
def colOf (g : Fin 16) (q : Fin 5504) : Fin 11008 := ⟨g.val % 2 * 5504 + q.val, by have := q.isLt; omega⟩

/-- Contraction block `kk`'s share of the product at `(r, n)`. -/
def dotBlock (c : Dev nD) (r : Fin 8192) (n : Fin 11008) (kk : Fin 16) : EReal :=
  ∑ l : Fin 256, X m c (ix2 r (col kk l)) * Q m c (ix2 (col kk l) n)
/-- Contraction block `kk`'s share of row `r`'s sum. -/
def rowBlock (c : Dev nD) (r : Fin 8192) (kk : Fin 16) : EReal :=
  ∑ l : Fin 256, X m c (ix2 r (col kk l))

/-- What the result array holds at the end, index by index. -/
def result (c : Dev nD) : S8192x11008.Idx → EReal := fun i =>
  upto 15 (dotBlock m c (i 0) (i 1)) * Sc m c (ix2 0 (i 1)) + upto 15 (rowBlock m c (i 0)) * OSc m c (ix2 0 (i 1)) + Bi m c (ix2 0 (i 1))

theorem ix2_congr {n0 n1 : Nat} {a a' : Fin n0} {b b' : Fin n1} (ha : a.val = a'.val) (hb : b.val = b'.val) :
    ix2 a b = ix2 a' b' := by rw [Fin.ext ha, Fin.ext hb]

/-! ## The input blocks of point `k` of group `g` -/

theorem xblk (c : Dev nD) (g k : Fin 16) (t : Fin cfg0.N) (ht : t.val = 16 * g.val + k.val) (p : Fin 1024) (l : Fin 256) :
    (iblk m c 0 t : Vec Ideal S1024x256 .bf16) (ix2 p l) = X m c (ix2 (rowOf g p) (col k l)) := by
  refine (Blocks.xblk_apply m c t p l).trans ?_
  have := g.isLt; have := k.isLt
  exact congrArg (X m c) (ix2_congr (by show t.val / 32 * 1024 + p.val = g.val / 2 * 1024 + p.val; omega)
    (by show t.val % 16 * 256 + l.val = k.val * 256 + l.val; omega))

theorem qblk (c : Dev nD) (g k : Fin 16) (t : Fin cfg0.N) (ht : t.val = 16 * g.val + k.val) (l : Fin 256) (q : Fin 5504) :
    (iblk m c 1 t : Vec Ideal S256x5504 .bf16) (ix2 l q) = Q m c (ix2 (col k l) (colOf g q)) := by
  refine (Blocks.qblk_apply m c t l q).trans ?_
  have := g.isLt; have := k.isLt
  exact congrArg (Q m c) (ix2_congr (by show t.val % 16 * 256 + l.val = k.val * 256 + l.val; omega)
    (by show t.val / 16 % 2 * 5504 + q.val = g.val % 2 * 5504 + q.val; omega))

theorem sblk (c : Dev nD) (g k : Fin 16) (t : Fin cfg0.N) (ht : t.val = 16 * g.val + k.val) (z : Fin 1) (q : Fin 5504) :
    (iblk m c 2 t : Vec Ideal S1x5504 .f32) (ix2 z q) = Sc m c (ix2 0 (colOf g q)) := by
  refine (Blocks.sblk_apply m c t z q).trans ?_
  have := g.isLt; have := k.isLt
  exact congrArg (Sc m c) (ix2_congr rfl (by show t.val / 16 % 2 * 5504 + q.val = g.val % 2 * 5504 + q.val; omega))

theorem osblk (c : Dev nD) (g k : Fin 16) (t : Fin cfg0.N) (ht : t.val = 16 * g.val + k.val) (z : Fin 1) (q : Fin 5504) :
    (iblk m c 3 t : Vec Ideal S1x5504 .f32) (ix2 z q) = OSc m c (ix2 0 (colOf g q)) := by
  refine (Blocks.osblk_apply m c t z q).trans ?_
  have := g.isLt; have := k.isLt
  exact congrArg (OSc m c) (ix2_congr rfl (by show t.val / 16 % 2 * 5504 + q.val = g.val % 2 * 5504 + q.val; omega))

theorem bblk (c : Dev nD) (g k : Fin 16) (t : Fin cfg0.N) (ht : t.val = 16 * g.val + k.val) (z : Fin 1) (q : Fin 5504) :
    (iblk m c 4 t : Vec Ideal S1x5504 .f32) (ix2 z q) = Bi m c (ix2 0 (colOf g q)) := by
  refine (Blocks.bblk_apply m c t z q).trans ?_
  have := g.isLt; have := k.isLt
  exact congrArg (Bi m c) (ix2_congr rfl (by show t.val / 16 % 2 * 5504 + q.val = g.val % 2 * 5504 + q.val; omega))

/-! ## The running contents of the output block and the scratch column -/

/-- After point `k` of group `g`: the scratch column holds the row sums over blocks `0 … k`; the output block holds the
    products over blocks `0 … k` while `k < 15`, and the finished result at `k = 15`. -/
theorem running (c : Dev nD) (g : Fin 16) : ∀ (k : ℕ) (hk : k < 16) (h : 16 * g.val + k < cfg0.N),
    (∀ (p : Fin 1024) (z : Fin 1), (outsAt0 m c (16 * g.val + k) h).2 (ix2 p z) = upto k (rowBlock m c (rowOf g p)))
    ∧ (k ≠ 15 → ∀ (p : Fin 1024) (q : Fin 5504),
        (outsAt0 m c (16 * g.val + k) h).1 (ix2 p q) = upto k (dotBlock m c (rowOf g p) (colOf g q)))
    ∧ (k = 15 → ∀ (p : Fin 1024) (q : Fin 5504),
        (outsAt0 m c (16 * g.val + k) h).1 (ix2 p q) = result m c (ix2 (rowOf g p) (colOf g q)))
  | 0, hk, h => by
    have h0 : (⟨16 * g.val + 0, h⟩ : Fin cfg0.N).val % 16 = 0 := by show (16 * g.val + 0) % 16 = 0; omega
    have h1 : ¬(⟨16 * g.val + 0, h⟩ : Fin cfg0.N).val % 16 = 15 := by show ¬(16 * g.val + 0) % 16 = 15; omega
    refine ⟨fun p z => ?_, fun _ p q => ?_, fun e => absurd e (by decide)⟩
    · rw [outsAt0_A m c (⟨16 * g.val + 0, h⟩ : Fin cfg0.N) h0 h1]
      dsimp only
      refine (congrFun (Pieces.rows_A (F := Ideal) c (grid0.coords (⟨16 * g.val + 0, h⟩ : Fin cfg0.N)) (ms0_0 (⟨16 * g.val + 0, h⟩ : Fin cfg0.N)) (hs0_0 (⟨16 * g.val + 0, h⟩ : Fin cfg0.N)) (ms0_1 (⟨16 * g.val + 0, h⟩ : Fin cfg0.N)) (hs0_1 (⟨16 * g.val + 0, h⟩ : Fin cfg0.N)) (ms0_2 (⟨16 * g.val + 0, h⟩ : Fin cfg0.N)) (hs0_2 (⟨16 * g.val + 0, h⟩ : Fin cfg0.N)) (ms0_3 (⟨16 * g.val + 0, h⟩ : Fin cfg0.N)) (hs0_3 (⟨16 * g.val + 0, h⟩ : Fin cfg0.N)) (ms0_4 (⟨16 * g.val + 0, h⟩ : Fin cfg0.N)) (hs0_4 (⟨16 * g.val + 0, h⟩ : Fin cfg0.N)) (ms0_5 (⟨16 * g.val + 0, h⟩ : Fin cfg0.N)) (hs0_5 (⟨16 * g.val + 0, h⟩ : Fin cfg0.N)) scM0_0 (Memref.isWhole_whole _) ((hcond0_0 (⟨16 * g.val + 0, h⟩ : Fin cfg0.N)).mpr h0) (fun h' => h1 ((hcond0_1 (⟨16 * g.val + 0, h⟩ : Fin cfg0.N)).mp h')) (iblk m c 0 (⟨16 * g.val + 0, h⟩ : Fin cfg0.N)) (iblk m c 1 (⟨16 * g.val + 0, h⟩ : Fin cfg0.N)) (iblk m c 2 (⟨16 * g.val + 0, h⟩ : Fin cfg0.N)) (iblk m c 3 (⟨16 * g.val + 0, h⟩ : Fin cfg0.N)) (iblk m c 4 (⟨16 * g.val + 0, h⟩ : Fin cfg0.N))) (ix2 p z)).trans ?_
      refine (Payload.acc_rows (iblk m c 0 (⟨16 * g.val + 0, h⟩ : Fin cfg0.N)) (k0_pay2 (F := Ideal)) p z).trans ?_
      rw [Payload.zero_rows, zero_add, upto_zero]
      show _ = ∑ l : Fin 256, X m c (ix2 (rowOf g p) (col 0 l))
      exact Finset.sum_congr rfl fun l _ => xblk m c g 0 (⟨16 * g.val + 0, h⟩ : Fin cfg0.N) rfl p l
    · rw [outsAt0_A m c (⟨16 * g.val + 0, h⟩ : Fin cfg0.N) h0 h1]
      dsimp only
      refine (congrFun (Pieces.out_A (F := Ideal) c (grid0.coords (⟨16 * g.val + 0, h⟩ : Fin cfg0.N)) (ms0_0 (⟨16 * g.val + 0, h⟩ : Fin cfg0.N)) (hs0_0 (⟨16 * g.val + 0, h⟩ : Fin cfg0.N)) (ms0_1 (⟨16 * g.val + 0, h⟩ : Fin cfg0.N)) (hs0_1 (⟨16 * g.val + 0, h⟩ : Fin cfg0.N)) (ms0_2 (⟨16 * g.val + 0, h⟩ : Fin cfg0.N)) (hs0_2 (⟨16 * g.val + 0, h⟩ : Fin cfg0.N)) (ms0_3 (⟨16 * g.val + 0, h⟩ : Fin cfg0.N)) (hs0_3 (⟨16 * g.val + 0, h⟩ : Fin cfg0.N)) (ms0_4 (⟨16 * g.val + 0, h⟩ : Fin cfg0.N)) (hs0_4 (⟨16 * g.val + 0, h⟩ : Fin cfg0.N)) (ms0_5 (⟨16 * g.val + 0, h⟩ : Fin cfg0.N)) (hs0_5 (⟨16 * g.val + 0, h⟩ : Fin cfg0.N)) scM0_0 (Memref.isWhole_whole _) ((hcond0_0 (⟨16 * g.val + 0, h⟩ : Fin cfg0.N)).mpr h0) (fun h' => h1 ((hcond0_1 (⟨16 * g.val + 0, h⟩ : Fin cfg0.N)).mp h')) (iblk m c 0 (⟨16 * g.val + 0, h⟩ : Fin cfg0.N)) (iblk m c 1 (⟨16 * g.val + 0, h⟩ : Fin cfg0.N)) (iblk m c 2 (⟨16 * g.val + 0, h⟩ : Fin cfg0.N)) (iblk m c 3 (⟨16 * g.val + 0, h⟩ : Fin cfg0.N)) (iblk m c 4 (⟨16 * g.val + 0, h⟩ : Fin cfg0.N))) (ix2 p q)).trans ?_
      refine (Payload.acc_out (iblk m c 0 (⟨16 * g.val + 0, h⟩ : Fin cfg0.N)) (k0_pay1 (F := Ideal)) (iblk m c 1 (⟨16 * g.val + 0, h⟩ : Fin cfg0.N)) p q).trans ?_
      rw [Payload.zero_out, zero_add, upto_zero]
      show _ = ∑ l : Fin 256, X m c (ix2 (rowOf g p) (col 0 l)) * Q m c (ix2 (col 0 l) (colOf g q))
      exact Finset.sum_congr rfl fun l _ => congrArg₂ (· * ·) (xblk m c g 0 (⟨16 * g.val + 0, h⟩ : Fin cfg0.N) rfl p l) (qblk m c g 0 (⟨16 * g.val + 0, h⟩ : Fin cfg0.N) rfl l q)
  | k + 1, hk, h => by
    have hN : cfg0.N = 256 := N_0
    obtain ⟨ihS, ihO, -⟩ := running c g k (by omega) (by omega)
    have h0 : ¬(⟨16 * g.val + (k + 1), h⟩ : Fin cfg0.N).val % 16 = 0 := by show ¬(16 * g.val + (k + 1)) % 16 = 0; omega
    have rowsStep : ∀ (p : Fin 1024) (z : Fin 1),
        k0_pay5 (F := Ideal) (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).2 (ix2 p z) = upto (k + 1) (rowBlock m c (rowOf g p)) := fun p z => by
      refine (Payload.acc_rows (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).2 p z).trans ?_
      rw [upto_succ k hk]
      exact congrArg₂ (· + ·) (ihS p z) (Finset.sum_congr rfl fun l _ => xblk m c g ⟨k + 1, hk⟩ (⟨16 * g.val + (k + 1), h⟩ : Fin cfg0.N) rfl p l)
    have outStep : ∀ (p : Fin 1024) (q : Fin 5504),
        k0_pay4 (F := Ideal) (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (iblk m c 1 (⟨16 * g.val + (k + 1), h⟩ : Fin cfg0.N)) (ix2 p q)
          = upto (k + 1) (dotBlock m c (rowOf g p) (colOf g q)) := fun p q => by
      refine (Payload.acc_out (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (iblk m c 1 (⟨16 * g.val + (k + 1), h⟩ : Fin cfg0.N)) p q).trans ?_
      rw [upto_succ k hk]
      exact congrArg₂ (· + ·) (ihO (by omega) p q) (Finset.sum_congr rfl fun l _ =>
        congrArg₂ (· * ·) (xblk m c g ⟨k + 1, hk⟩ (⟨16 * g.val + (k + 1), h⟩ : Fin cfg0.N) rfl p l) (qblk m c g ⟨k + 1, hk⟩ (⟨16 * g.val + (k + 1), h⟩ : Fin cfg0.N) rfl l q))
    by_cases h1 : (⟨16 * g.val + (k + 1), h⟩ : Fin cfg0.N).val % 16 = 15
    · have hk14 : k + 1 = 15 := by have : (16 * g.val + (k + 1)) % 16 = 15 := h1; omega
      refine ⟨fun p z => ?_, fun e => absurd hk14 e, fun _ p q => ?_⟩
      · rw [outsAt0_C m c (⟨16 * g.val + (k + 1), h⟩ : Fin cfg0.N) h0 h1]
        dsimp only
        refine (congrFun (Pieces.rows_C (F := Ideal) c (grid0.coords (⟨16 * g.val + (k + 1), h⟩ : Fin cfg0.N)) (ms0_0 (⟨16 * g.val + (k + 1), h⟩ : Fin cfg0.N)) (hs0_0 (⟨16 * g.val + (k + 1), h⟩ : Fin cfg0.N)) (ms0_1 (⟨16 * g.val + (k + 1), h⟩ : Fin cfg0.N)) (hs0_1 (⟨16 * g.val + (k + 1), h⟩ : Fin cfg0.N)) (ms0_2 (⟨16 * g.val + (k + 1), h⟩ : Fin cfg0.N)) (hs0_2 (⟨16 * g.val + (k + 1), h⟩ : Fin cfg0.N)) (ms0_3 (⟨16 * g.val + (k + 1), h⟩ : Fin cfg0.N)) (hs0_3 (⟨16 * g.val + (k + 1), h⟩ : Fin cfg0.N)) (ms0_4 (⟨16 * g.val + (k + 1), h⟩ : Fin cfg0.N)) (hs0_4 (⟨16 * g.val + (k + 1), h⟩ : Fin cfg0.N)) (ms0_5 (⟨16 * g.val + (k + 1), h⟩ : Fin cfg0.N)) (hs0_5 (⟨16 * g.val + (k + 1), h⟩ : Fin cfg0.N)) scM0_0 (Memref.isWhole_whole _) (fun h' => h0 ((hcond0_0 (⟨16 * g.val + (k + 1), h⟩ : Fin cfg0.N)).mp h')) ((hcond0_1 (⟨16 * g.val + (k + 1), h⟩ : Fin cfg0.N)).mpr h1) (iblk m c 0 (⟨16 * g.val + (k + 1), h⟩ : Fin cfg0.N)) (iblk m c 1 (⟨16 * g.val + (k + 1), h⟩ : Fin cfg0.N)) (iblk m c 2 (⟨16 * g.val + (k + 1), h⟩ : Fin cfg0.N)) (iblk m c 3 (⟨16 * g.val + (k + 1), h⟩ : Fin cfg0.N)) (iblk m c 4 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (outsAt0 m c ((⟨16 * g.val + (k + 1), h⟩ : Fin cfg0.N).val - 1) (Nat.lt_of_le_of_lt (Nat.sub_le _ _) (⟨16 * g.val + (k + 1), h⟩ : Fin cfg0.N).isLt)).2) (ix2 p z)).trans ?_
        exact rowsStep p z
      · rw [outsAt0_C m c (⟨16 * g.val + (k + 1), h⟩ : Fin cfg0.N) h0 h1]
        dsimp only
        refine (congrFun (Pieces.out_C (F := Ideal) c (grid0.coords (⟨16 * g.val + (k + 1), h⟩ : Fin cfg0.N)) (ms0_0 (⟨16 * g.val + (k + 1), h⟩ : Fin cfg0.N)) (hs0_0 (⟨16 * g.val + (k + 1), h⟩ : Fin cfg0.N)) (ms0_1 (⟨16 * g.val + (k + 1), h⟩ : Fin cfg0.N)) (hs0_1 (⟨16 * g.val + (k + 1), h⟩ : Fin cfg0.N)) (ms0_2 (⟨16 * g.val + (k + 1), h⟩ : Fin cfg0.N)) (hs0_2 (⟨16 * g.val + (k + 1), h⟩ : Fin cfg0.N)) (ms0_3 (⟨16 * g.val + (k + 1), h⟩ : Fin cfg0.N)) (hs0_3 (⟨16 * g.val + (k + 1), h⟩ : Fin cfg0.N)) (ms0_4 (⟨16 * g.val + (k + 1), h⟩ : Fin cfg0.N)) (hs0_4 (⟨16 * g.val + (k + 1), h⟩ : Fin cfg0.N)) (ms0_5 (⟨16 * g.val + (k + 1), h⟩ : Fin cfg0.N)) (hs0_5 (⟨16 * g.val + (k + 1), h⟩ : Fin cfg0.N)) scM0_0 (Memref.isWhole_whole _) (fun h' => h0 ((hcond0_0 (⟨16 * g.val + (k + 1), h⟩ : Fin cfg0.N)).mp h')) ((hcond0_1 (⟨16 * g.val + (k + 1), h⟩ : Fin cfg0.N)).mpr h1) (iblk m c 0 (⟨16 * g.val + (k + 1), h⟩ : Fin cfg0.N)) (iblk m c 1 (⟨16 * g.val + (k + 1), h⟩ : Fin cfg0.N)) (iblk m c 2 (⟨16 * g.val + (k + 1), h⟩ : Fin cfg0.N)) (iblk m c 3 (⟨16 * g.val + (k + 1), h⟩ : Fin cfg0.N)) (iblk m c 4 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (outsAt0 m c ((⟨16 * g.val + (k + 1), h⟩ : Fin cfg0.N).val - 1) (Nat.lt_of_le_of_lt (Nat.sub_le _ _) (⟨16 * g.val + (k + 1), h⟩ : Fin cfg0.N).isLt)).2) (ix2 p q)).trans ?_
        refine (Payload.epilogue (k0_pay4 (F := Ideal) (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (iblk m c 1 (⟨16 * g.val + (k + 1), h⟩ : Fin cfg0.N))) (iblk m c 2 (⟨16 * g.val + (k + 1), h⟩ : Fin cfg0.N))
          (k0_pay5 (F := Ideal) (iblk m c 0 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).2) (iblk m c 3 (⟨16 * g.val + (k + 1), h⟩ : Fin cfg0.N)) (iblk m c 4 (⟨16 * g.val + (k + 1), h⟩ : Fin cfg0.N)) p q).trans ?_
        have e1 := (outStep p q).trans (show upto (k + 1) (dotBlock m c (rowOf g p) (colOf g q)) = upto 15 (dotBlock m c (rowOf g p) (colOf g q)) by rw [hk14])
        have e2 := (rowsStep p 0).trans (show upto (k + 1) (rowBlock m c (rowOf g p)) = upto 15 (rowBlock m c (rowOf g p)) by rw [hk14])
        show _ = upto 15 (dotBlock m c (rowOf g p) (colOf g q)) * Sc m c (ix2 0 (colOf g q)) + upto 15 (rowBlock m c (rowOf g p)) * OSc m c (ix2 0 (colOf g q)) + Bi m c (ix2 0 (colOf g q))
        exact congrArg₂ (· + ·) (congrArg₂ (· + ·) (congrArg₂ (· * ·) e1 (sblk m c g ⟨k + 1, hk⟩ (⟨16 * g.val + (k + 1), h⟩ : Fin cfg0.N) rfl 0 q))
          (congrArg₂ (· * ·) e2 (osblk m c g ⟨k + 1, hk⟩ (⟨16 * g.val + (k + 1), h⟩ : Fin cfg0.N) rfl 0 q))) (bblk m c g ⟨k + 1, hk⟩ (⟨16 * g.val + (k + 1), h⟩ : Fin cfg0.N) rfl 0 q)
    · have hk14 : k + 1 ≠ 15 := fun e => h1 (by show (16 * g.val + (k + 1)) % 16 = 15; omega)
      refine ⟨fun p z => ?_, fun _ p q => ?_, fun e => absurd e hk14⟩
      · rw [outsAt0_B m c (⟨16 * g.val + (k + 1), h⟩ : Fin cfg0.N) h0 h1]
        dsimp only
        refine (congrFun (Pieces.rows_B (F := Ideal) c (grid0.coords (⟨16 * g.val + (k + 1), h⟩ : Fin cfg0.N)) (ms0_0 (⟨16 * g.val + (k + 1), h⟩ : Fin cfg0.N)) (hs0_0 (⟨16 * g.val + (k + 1), h⟩ : Fin cfg0.N)) (ms0_1 (⟨16 * g.val + (k + 1), h⟩ : Fin cfg0.N)) (hs0_1 (⟨16 * g.val + (k + 1), h⟩ : Fin cfg0.N)) (ms0_2 (⟨16 * g.val + (k + 1), h⟩ : Fin cfg0.N)) (hs0_2 (⟨16 * g.val + (k + 1), h⟩ : Fin cfg0.N)) (ms0_3 (⟨16 * g.val + (k + 1), h⟩ : Fin cfg0.N)) (hs0_3 (⟨16 * g.val + (k + 1), h⟩ : Fin cfg0.N)) (ms0_4 (⟨16 * g.val + (k + 1), h⟩ : Fin cfg0.N)) (hs0_4 (⟨16 * g.val + (k + 1), h⟩ : Fin cfg0.N)) (ms0_5 (⟨16 * g.val + (k + 1), h⟩ : Fin cfg0.N)) (hs0_5 (⟨16 * g.val + (k + 1), h⟩ : Fin cfg0.N)) scM0_0 (Memref.isWhole_whole _) (fun h' => h0 ((hcond0_0 (⟨16 * g.val + (k + 1), h⟩ : Fin cfg0.N)).mp h')) (fun h' => h1 ((hcond0_1 (⟨16 * g.val + (k + 1), h⟩ : Fin cfg0.N)).mp h')) (iblk m c 0 (⟨16 * g.val + (k + 1), h⟩ : Fin cfg0.N)) (iblk m c 1 (⟨16 * g.val + (k + 1), h⟩ : Fin cfg0.N)) (iblk m c 2 (⟨16 * g.val + (k + 1), h⟩ : Fin cfg0.N)) (iblk m c 3 (⟨16 * g.val + (k + 1), h⟩ : Fin cfg0.N)) (iblk m c 4 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (outsAt0 m c ((⟨16 * g.val + (k + 1), h⟩ : Fin cfg0.N).val - 1) (Nat.lt_of_le_of_lt (Nat.sub_le _ _) (⟨16 * g.val + (k + 1), h⟩ : Fin cfg0.N).isLt)).2) (ix2 p z)).trans ?_
        exact rowsStep p z
      · rw [outsAt0_B m c (⟨16 * g.val + (k + 1), h⟩ : Fin cfg0.N) h0 h1]
        dsimp only
        refine (congrFun (Pieces.out_B (F := Ideal) c (grid0.coords (⟨16 * g.val + (k + 1), h⟩ : Fin cfg0.N)) (ms0_0 (⟨16 * g.val + (k + 1), h⟩ : Fin cfg0.N)) (hs0_0 (⟨16 * g.val + (k + 1), h⟩ : Fin cfg0.N)) (ms0_1 (⟨16 * g.val + (k + 1), h⟩ : Fin cfg0.N)) (hs0_1 (⟨16 * g.val + (k + 1), h⟩ : Fin cfg0.N)) (ms0_2 (⟨16 * g.val + (k + 1), h⟩ : Fin cfg0.N)) (hs0_2 (⟨16 * g.val + (k + 1), h⟩ : Fin cfg0.N)) (ms0_3 (⟨16 * g.val + (k + 1), h⟩ : Fin cfg0.N)) (hs0_3 (⟨16 * g.val + (k + 1), h⟩ : Fin cfg0.N)) (ms0_4 (⟨16 * g.val + (k + 1), h⟩ : Fin cfg0.N)) (hs0_4 (⟨16 * g.val + (k + 1), h⟩ : Fin cfg0.N)) (ms0_5 (⟨16 * g.val + (k + 1), h⟩ : Fin cfg0.N)) (hs0_5 (⟨16 * g.val + (k + 1), h⟩ : Fin cfg0.N)) scM0_0 (Memref.isWhole_whole _) (fun h' => h0 ((hcond0_0 (⟨16 * g.val + (k + 1), h⟩ : Fin cfg0.N)).mp h')) (fun h' => h1 ((hcond0_1 (⟨16 * g.val + (k + 1), h⟩ : Fin cfg0.N)).mp h')) (iblk m c 0 (⟨16 * g.val + (k + 1), h⟩ : Fin cfg0.N)) (iblk m c 1 (⟨16 * g.val + (k + 1), h⟩ : Fin cfg0.N)) (iblk m c 2 (⟨16 * g.val + (k + 1), h⟩ : Fin cfg0.N)) (iblk m c 3 (⟨16 * g.val + (k + 1), h⟩ : Fin cfg0.N)) (iblk m c 4 (⟨16 * g.val + (k + 1), h⟩ : Fin cfg0.N)) (outsAt0 m c ((⟨16 * g.val + (k + 1), h⟩ : Fin cfg0.N).val - 1) (Nat.lt_of_le_of_lt (Nat.sub_le _ _) (⟨16 * g.val + (k + 1), h⟩ : Fin cfg0.N).isLt)).1 (outsAt0 m c ((⟨16 * g.val + (k + 1), h⟩ : Fin cfg0.N).val - 1) (Nat.lt_of_le_of_lt (Nat.sub_le _ _) (⟨16 * g.val + (k + 1), h⟩ : Fin cfg0.N).isLt)).2) (ix2 p q)).trans ?_
        exact outStep p q

/-- After the last point of group `g` the output block holds the finished result of its rows and columns. -/
theorem finished (c : Dev nD) (g : Fin 16) (h : 16 * g.val + 15 < cfg0.N) (p : Fin 1024) (q : Fin 5504) :
    (outsAt0 m c (16 * g.val + 15) h).1 (ix2 p q) = result m c (ix2 (rowOf g p) (colOf g q)) :=
  (running m c g 15 (by decide) h).2.2 rfl p q

end Cert.DequantLinear.Accumulate

end
-- ==== Proof.KernelValue.lean ====
/-
  The result array of the idealized kernel after its run.

  The output window's block at a point of group `g` covers rows `1024·(g/2) …` and columns `5504·(g%2) …`, and is
  written back once, after the group's last point, when it holds the finished result of those rows and columns
  (`Accumulate.finished`). The sixteen blocks tile the array, so the array ends holding `Accumulate.result`.
-/
import proofs.«404710_j78331613545153_3_alg».proof.Proof.Accumulate
import proofs.«404710_j78331613545153_3_alg».proof.Proof.Gen.KernelIdeal.Value
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.DequantLinear.KernelValue

open Cert.KernelIdeal Cert.KernelIdeal.Gen Cert.DequantLinear Cert.DequantLinear.Accumulate

variable (m : (ℓ : Loc nD τ sig) → Buf (Elt Ideal) ℓ) (ρ : Dev nD → PrngReg)

/-- The output window's block index at a point: row block `t / 32`, column block `(t / 16) % 2`. -/
theorem idx5 : ∀ t : Fin cfg0.N, win0_5.index t (0 : Fin 2) = t.val / 32 ∧ win0_5.index t (1 : Fin 2) = t.val / 16 % 2 :=
  (by decide +kernel : ∀ t : Fin grid0.N, win0_5.index t (0 : Fin 2) = t.val / 32 ∧ win0_5.index t (1 : Fin 2) = t.val / 16 % 2)

/-- The whole output block after a group's last point, as a function of the block's coordinates. -/
theorem block_last (c : Dev nD) (g : Fin 16) (h : 16 * g.val + 15 < cfg0.N) :
    (outsAt0 m c (16 * g.val + 15) h).1 = fun y : S1024x5504.Idx => result m c (ix2 (rowOf g (y 0)) (colOf g (y 1))) := by
  funext y
  obtain ⟨p, q, rfl⟩ : ∃ (p : Fin 1024) (q : Fin 5504), y = ix2 p q := ⟨y 0, y 1, eq_ix2 y⟩
  exact finished m c g h p q

/-- What a write-back writes is the block of `result` it covers. -/
theorem flushed_eq (c : Dev nD) (t : Fin cfg0.N) (hf : (cfg0.win 5).flush t = true) :
    (dats m 0 c).flushed 5 t = ((cfg0.win 5).blk t).view.read (Elt Ideal) (result m c) := by
  have hN : cfg0.N = 256 := N_0
  have h15 : t.val % 16 = 15 := (flush0_5 t).mp hf
  obtain ⟨n, hn⟩ := t
  have h15' : n % 16 = 15 := h15
  obtain ⟨g, rfl⟩ : ∃ g : Fin 16, n = 16 * g.val + 15 := ⟨⟨n / 16, by omega⟩, by show n = 16 * (n / 16) + 15; omega⟩
  obtain ⟨i0, i1⟩ := idx5 ⟨16 * g.val + 15, hn⟩
  have i0' : win0_5.index ⟨16 * g.val + 15, hn⟩ (0 : Fin 2) = (16 * g.val + 15) / 32 := i0
  have i1' : win0_5.index ⟨16 * g.val + 15, hn⟩ (1 : Fin 2) = (16 * g.val + 15) / 16 % 2 := i1
  rw [Value.flushed5]
  show (cfg0.win 5).cut (grid0.coords ⟨16 * g.val + 15, hn⟩) ((outsAt0 m c (16 * g.val + 15) hn).1) = _
  rw [block_last m c g hn]
  funext j
  rw [View.read_apply]
  show result m c (ix2 (rowOf g _) (colOf g _)) = result m c (((cfg0.win 5).blk ⟨16 * g.val + 15, hn⟩).view.emb j)
  refine congrArg (result m c) (funext fun a => Fin.ext ?_)
  have hg := g.isLt
  match a with
  | ⟨0, _⟩ =>
    show g.val / 2 * 1024 + (j 0).val = win0_5.index ⟨16 * g.val + 15, hn⟩ (0 : Fin 2) * 1024 + 1 * (j 0).val
    rw [i0']; omega
  | ⟨1, _⟩ =>
    show g.val % 2 * 5504 + (j 1).val = win0_5.index ⟨16 * g.val + 15, hn⟩ (1 : Fin 2) * 5504 + 1 * (j 1).val
    rw [i1']; omega

/-- An index of the array is in a point's block iff each coordinate is in the block's range on its axis. -/
theorem mem_blk (t : Fin cfg0.N) (i : S8192x11008.Idx) :
    i ∈ ((cfg0.win 5).blk t).view.set ↔ ∀ a : Fin 2, win0_5.index t a * S1024x5504.size a ≤ (i a).val ∧ (i a).val < win0_5.index t a * S1024x5504.size a + S1024x5504.size a := by
  show i ∈ ((View.whole main_v24).slice (win0_5.rect t)).set ↔ _
  rw [View.set_slice_whole, Rect.mem_set_unit]
  exact Iff.rfl

/-- Every entry of the result lies in the block written back after the last point of its group. -/
theorem cover (i : S8192x11008.Idx) :
    ∃ t : Fin cfg0.N, (cfg0.win 5).flush t = true ∧ i ∈ ((cfg0.win 5).blk t).view.set := by
  have hN : cfg0.N = 256 := N_0
  have h0 : (i 0).val < 8192 := (i 0).isLt
  have h1 : (i 1).val < 11008 := (i 1).isLt
  have hlt : (i 0).val / 1024 * 32 + (i 1).val / 5504 * 16 + 15 < cfg0.N := by omega
  refine ⟨⟨(i 0).val / 1024 * 32 + (i 1).val / 5504 * 16 + 15, hlt⟩, (flush0_5 _).mpr (by show ((i 0).val / 1024 * 32 + (i 1).val / 5504 * 16 + 15) % 16 = 15; omega), ?_⟩
  rw [mem_blk]
  obtain ⟨e0, e1⟩ := idx5 ⟨(i 0).val / 1024 * 32 + (i 1).val / 5504 * 16 + 15, hlt⟩
  have e0' : win0_5.index ⟨(i 0).val / 1024 * 32 + (i 1).val / 5504 * 16 + 15, hlt⟩ (0 : Fin 2) = ((i 0).val / 1024 * 32 + (i 1).val / 5504 * 16 + 15) / 32 := e0
  have e1' : win0_5.index ⟨(i 0).val / 1024 * 32 + (i 1).val / 5504 * 16 + 15, hlt⟩ (1 : Fin 2) = ((i 0).val / 1024 * 32 + (i 1).val / 5504 * 16 + 15) / 16 % 2 := e1
  intro a
  match a with
  | ⟨0, _⟩ =>
    show win0_5.index _ (0 : Fin 2) * 1024 ≤ (i 0).val ∧ (i 0).val < win0_5.index _ (0 : Fin 2) * 1024 + 1024
    rw [e0']; omega
  | ⟨1, _⟩ =>
    show win0_5.index _ (1 : Fin 2) * 5504 ≤ (i 1).val ∧ (i 1).val < win0_5.index _ (1 : Fin 2) * 5504 + 5504
    rw [e1']; omega

/-- The result array after the run. -/
theorem final (c : Dev nD) : (dats m 0 c).arrAt 5 cfg0.N = result m c :=
  (dats m 0 c).arrAt_eq_of_cover 5 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.DequantLinear.KernelValue

end
-- ==== Proof.Bridge.lean ====
/-
  The kernel's result is the reference's formula.

  With the arrays the region finds read back to the program's arguments (the cast of the activations is the identity,
  the integer weights are the reference's own integers, the three rows are the flat vectors), the finished result at
  `(r, n)` is `(∑ᵤ xᵤ·qᵤ)·s + (∑ᵤ xᵤ)·(o·s) + b`, and for finite `x, s, o, b` that is `∑ᵤ xᵤ·((qᵤ + o)·s) + b`.
-/
import proofs.«404710_j78331613545153_3_alg».proof.Proof.Accumulate

set_option maxRecDepth 16384

noncomputable section

open Idealize.ShloMosaic Idealize.ShloMosaic.TcCoe Idealize.SL.Sem Idealize.ShloMosaic.ValueIdx
open scoped BigOperators

namespace Cert.DequantLinear.Bridge

open Cert.KernelIdeal Cert.KernelIdeal.Gen Cert.DequantLinear Cert.DequantLinear.Accumulate

variable (m : (ℓ : Loc nD τ sig) → Buf (Elt Ideal) ℓ)

/-- The program's arguments on core `c`: activations, scale, offset, bias; and the unpacked integer weights as reals. -/
abbrev act (c : Dev nD) : S8192x4096.Idx → EReal := m ((c : Thread nD τ).loc main_arg0)
abbrev scale (c : Dev nD) : S11008.Idx → EReal := m ((c : Thread nD τ).loc main_arg2)
abbrev offset (c : Dev nD) : S11008.Idx → EReal := m ((c : Thread nD τ).loc main_arg3)
abbrev bias (c : Dev nD) : S11008.Idx → EReal := m ((c : Thread nD τ).loc main_arg4)
abbrev weight (c : Dev nD) : S4096x11008.Idx → EReal := fun j =>
  (((Cert.ReferenceIdeal.Read.val_main_v17 (F := Ideal) (m ((c : Thread nD τ).loc main_arg1)) j).toInt : ℝ) : EReal)

theorem result_apply (c : Dev nD)
    (h0 : ∀ i, ∃ r : ℝ, act m c i = (r : EReal)) (h2 : ∀ i, ∃ r : ℝ, scale m c i = (r : EReal))
    (h3 : ∀ i, ∃ r : ℝ, offset m c i = (r : EReal)) (h4 : ∀ i, ∃ r : ℝ, bias m c i = (r : EReal))
    (r : Fin 8192) (n : Fin 11008) :
    result m c (ix2 r n)
      = (∑ u : Fin 4096, act m c (ix2 r u) * ((weight m c (ix2 u n) + offset m c (ix1 n)) * scale m c (ix1 n))) + bias m c (ix1 n) := by
  refine Eq.trans ?_ (dequant_law (fun u => act m c (ix2 r u)) (fun u => weight m c (ix2 u n)) (scale m c (ix1 n)) (offset m c (ix1 n))
    (bias m c (ix1 n)) (fun u => h0 _) (fun u => ⟨_, rfl⟩) (h2 _) (h3 _) (h4 _))
  show upto 15 (dotBlock m c r n) * Sc m c (ix2 0 n) + upto 15 (rowBlock m c r) * OSc m c (ix2 0 n) + Bi m c (ix2 0 n) = _
  have eX : ∀ u : Fin 4096, X m c (ix2 r u) = act m c (ix2 r u) := fun u => Blocks.V_x m c r u
  have eQ : ∀ u : Fin 4096, Q m c (ix2 u n) = weight m c (ix2 u n) := fun u => Blocks.V_q m c u n
  have eS : Sc m c (ix2 0 n) = scale m c (ix1 n) := Blocks.V_s m c n
  have eO : OSc m c (ix2 0 n) = offset m c (ix1 n) * scale m c (ix1 n) := Blocks.V_os m c n
  have eB : Bi m c (ix2 0 n) = bias m c (ix1 n) := Blocks.V_b m c n
  unfold dotBlock rowBlock
  simp only [eX, eQ, eS, eO, eB]

end Cert.DequantLinear.Bridge

end
-- ==== Proof.RefValue.lean ====
/-
  The reference's result read at one index.

  The reference program computes, for an activation matrix x0 (8192 × 4096), an integer weight matrix
  (the stage val_main_v17, 4096 × 11008, kept closed here), a scale x2, an offset x3 and a bias x4 (each of length 11008),
      out[r, n] = (∑ u, x0[r, u] * ((w[u, n] + x3[n]) * x2[n])) + x4[n].
  Each stage of the reference reads its operands at an index computed from the result's index; at the
  index (r, n) these computed indices are the plain coordinate indices below, and the chain of stages
  collapses to the displayed formula over the extended reals.
-/
import proofs.«404710_j78331613545153_3_alg».proof.Proof.Gen.ReferenceIdeal.Read
import Idealize.ShloMosaic.Lib.ValueIdx
import Idealize.ShloMosaic.PureOps.Ideal.Laws

noncomputable section

open scoped BigOperators

namespace Cert.DequantLinear.Ref

open Idealize.ShloMosaic Idealize.ShloMosaic.ValueIdx Cert.ReferenceIdeal Cert.ReferenceIdeal.Read

/-! ## The stages' operand indices at coordinate indices -/

/-- The bias row broadcast over the rows of the result is read in its single row. -/
theorem idx27 (r : Fin 8192) (n : Fin 11008) :
    idx_main_v27 (ix2 r n) = ix2 (⟨0, Nat.one_pos⟩ : Fin 1) n :=
  funext fun a => Fin.ext (by match a with | ⟨0, _⟩ => rfl | ⟨1, _⟩ => rfl)

/-- The bias vector made a one-row matrix is read at the column. -/
theorem idx26 (z : Fin 1) (n : Fin 11008) : idx_main_v26 (ix2 z n) = ix1 n :=
  funext fun a => Fin.ext (by match a with | ⟨0, _⟩ => rfl)

/-- The contraction reads the left operand in the result's row and the contracted coordinate. -/
theorem lidx25 (r : Fin 8192) (n : Fin 11008) (u : Fin 4096) :
    lidx_main_v25 (ix2 r n) u = ix2 r u :=
  funext fun a => Fin.ext (by match a with | ⟨0, _⟩ => rfl | ⟨1, _⟩ => rfl)

/-- The contraction reads the right operand in the contracted coordinate and the result's column. -/
theorem ridx25 (r : Fin 8192) (n : Fin 11008) (u : Fin 4096) :
    ridx_main_v25 (ix2 r n) u = ix2 u n :=
  funext fun a => Fin.ext (by match a with | ⟨0, _⟩ => rfl | ⟨1, _⟩ => rfl)

/-- The offset row broadcast over the rows of the weights is read in its single row. -/
theorem idx20 (u : Fin 4096) (n : Fin 11008) :
    idx_main_v20 (ix2 u n) = ix2 (⟨0, Nat.one_pos⟩ : Fin 1) n :=
  funext fun a => Fin.ext (by match a with | ⟨0, _⟩ => rfl | ⟨1, _⟩ => rfl)

/-- The offset vector made a one-row matrix is read at the column. -/
theorem idx19 (z : Fin 1) (n : Fin 11008) : idx_main_v19 (ix2 z n) = ix1 n :=
  funext fun a => Fin.ext (by match a with | ⟨0, _⟩ => rfl)

/-- The scale row broadcast over the rows of the weights is read in its single row. -/
theorem idx23 (u : Fin 4096) (n : Fin 11008) :
    idx_main_v23 (ix2 u n) = ix2 (⟨0, Nat.one_pos⟩ : Fin 1) n :=
  funext fun a => Fin.ext (by match a with | ⟨0, _⟩ => rfl | ⟨1, _⟩ => rfl)

/-- The scale vector made a one-row matrix is read at the column. -/
theorem idx22 (z : Fin 1) (n : Fin 11008) : idx_main_v22 (ix2 z n) = ix1 n :=
  funext fun a => Fin.ext (by match a with | ⟨0, _⟩ => rfl)

/-! ## The dequantised weight and the result -/

/-- The dequantised weight at (u, n): the integer weight plus the offset, times the scale. -/
theorem weight_apply (x1 : IVec S4096x5504 32) (x2 x3 : FVec Ideal S11008 .f32) (u : Fin 4096) (n : Fin 11008) :
    val_main_v24 (F := Ideal) x1 x2 x3 (ix2 u n)
      = ((((val_main_v17 (F := Ideal) x1 (ix2 u n)).toInt : ℝ) : EReal) + x3 (ix1 n)) * x2 (ix1 n) := by
  rw [val_main_v24_apply, val_main_v21_apply, val_main_v18_apply, val_main_v20_apply, val_main_v19_apply,
    val_main_v23_apply, val_main_v22_apply, idx20, idx19, idx23, idx22]
  rfl

/-- The reference's result at (r, n). -/
theorem ref_apply (x0 : FVec Ideal S8192x4096 .f32) (x1 : IVec S4096x5504 32) (x2 x3 x4 : FVec Ideal S11008 .f32) (r : Fin 8192) (n : Fin 11008) :
    val_main_v28 (F := Ideal) x0 x1 x2 x3 x4 (ix2 r n)
      = (∑ u : Fin 4096, x0 (ix2 r u) * (((((val_main_v17 (F := Ideal) x1 (ix2 u n)).toInt : ℝ) : EReal) + x3 (ix1 n)) * x2 (ix1 n))) + x4 (ix1 n) := by
  rw [val_main_v28_apply, val_main_v25_apply, val_main_v27_apply, val_main_v26_apply, idx27, idx26]
  refine (Ideal.addf_def _ _).trans ?_
  refine congrArg (· + x4 (ix1 n)) ?_
  refine Finset.sum_congr rfl fun u _ => ?_
  rw [lidx25, ridx25, weight_apply]

end Cert.DequantLinear.Ref

end
-- ==== Proof.Finite.lean ====
/-
  Finiteness from the precondition. The precondition is the conjunction of four tests
  "every entry has absolute value below +∞", one for each floating-point input. Read at the
  extended reals, an entry a passes the test exactly when max a (-a) < ⊤, which excludes both
  a = ⊤ and a = ⊥; what is left of EReal is the reals.
-/
import proofs.«404710_j78331613545153_3_alg».proof.Pre_finite_inputs
import Idealize.ShloMosaic.Lib.ReduceAll
import Idealize.ShloMosaic.Lib.ValueIdx
import Idealize.ShloMosaic.PureOps.Ideal.Laws
import Mathlib.Data.EReal.Basic

namespace Cert.DequantLinear.Finite

open Idealize.ShloMosaic Cert.Pre_finite_inputs

variable [Cert.Pre_finite_inputs.Facts]

/-- The word 0x7F800000 (sign 0, exponent all ones, fraction 0) denotes +∞. -/
theorem inf_word : Ideal.ofBits .f32 0x7F800000#32 = (⊤ : EReal) := by
  simp [Ideal.ofBits, Ideal.ieee]

/-- An extended real whose absolute value max a (-a) is strictly below ⊤ is a real: ⊤ gives
    max ⊤ ⊥ = ⊤ and ⊥ gives max ⊥ ⊤ = ⊤, neither below ⊤. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a Boolean is 1 only when the Boolean is true. -/
theorem ofBool_one {b : Bool} (h : BitVec.ofBool b = 1#1) : b = true := by
  cases b
  · exact absurd h (by decide)
  · rfl

/-- The element test of the precondition, passed: the entry is a real. -/
theorem real_of_test (a : Ideal .f32)
    (h : FloatOps.cmpf .olt (FloatOps.hostAbsf a) (FloatOps.ofBits (F := Ideal) .f32 0x7F800000#32) = 1#1) :
    ∃ r : ℝ, a = (r : EReal) := by
  refine real_of_abs_lt_top a ?_
  have h' : BitVec.ofBool (decide (max a (-a) < Ideal.ofBits .f32 0x7F800000#32)) = 1#1 := h
  rw [inf_word] at h'
  exact of_decide_eq_true (ofBool_one h')

instance : Subsingleton S_.Idx := ⟨fun a b => funext fun d => d.elim0⟩

/-- One jnp.all(|x| < inf) that came out true, over any shape: every entry of x is a real. -/
theorem all_real {s : Shape} {axes : List (Fin s.rank)} (x : FVec Ideal s .f32)
    (bc : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] bc (constant (F := Ideal) S_ .f32 0x7F800000#32))) init hr hu
        ValueIdx.ix0 = 1#1) :
    ∀ i, ∃ r : ℝ, x i = (r : EReal) := fun i =>
  real_of_test (x i) (Host.reduce_andi_all _ init hr hu ValueIdx.ix0 e i)

theorem real_of_pre (x0 : FVec Ideal S8192x4096 .f32) (x1 : IVec S4096x5504 32) (x2 x3 x4 : FVec Ideal S11008 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x0 _ _ _ _ h1, all_real x2 _ _ _ _ h2, all_real x3 _ _ _ _ h3, all_real x4 _ _ _ _ h4⟩

end Cert.DequantLinear.Finite
-- ==== Proof.lean ====
/-
  A linear layer with four-bit weights: `x · ((q + offset) · scale) + bias`.

  Both programs unpack the same integers `q` (two signed nibbles per packed word) with the same integer operations.
  The reference dequantizes, `w = (q + offset)·scale`, and takes one product `x·w + bias`. The kernel never forms `w`: over a
  grid of 8 × 2 output blocks and 16 contraction blocks it accumulates the integer product `x·q` in the output block and
  the row sums of `x` in a scratch column, and after the last contraction block stores
  `(x·q)·scale + rowsum(x)·(offset·scale) + bias`. Over the extended reals the narrowing of `x` and `q` to sixteen bits is
  the identity, sums may be taken block by block in any grouping, and for finite `x`, `scale`, `offset`, `bias`

      (∑ᵤ xᵤ·qᵤ)·s + (∑ᵤ xᵤ)·(o·s) + b = ∑ᵤ xᵤ·((qᵤ + o)·s) + b

  by distributivity — the one place the precondition (every float input finite) is used: at an infinity the two sides
  can differ.

  The modules: BlockSums (sums by blocks and the law), Pieces (what one run of the body leaves, per control case),
  Payload (the stored values read at an index), Blocks (the input blocks and the host glue read at an index),
  Accumulate (the induction over the contraction blocks), KernelValue (the result array after the run), RefValue (the
  reference's result read at an index), Finite (finiteness from the precondition), Bridge (the two formulas are one).
-/
import proofs.«404710_j78331613545153_3_alg».proof.Defs
import proofs.«404710_j78331613545153_3_alg».proof.Proof.Gen.Kernel
import proofs.«404710_j78331613545153_3_alg».proof.Proof.Gen.Kernel.Skeleton
import proofs.«404710_j78331613545153_3_alg».proof.Proof.Gen.Kernel.Launch
import proofs.«404710_j78331613545153_3_alg».proof.Proof.Gen.Kernel.Points
import proofs.«404710_j78331613545153_3_alg».proof.Proof.Gen.Kernel.Frame
import proofs.«404710_j78331613545153_3_alg».proof.Proof.Gen.KernelIdeal
import proofs.«404710_j78331613545153_3_alg».proof.Proof.Gen.KernelIdeal.Skeleton
import proofs.«404710_j78331613545153_3_alg».proof.Proof.Gen.KernelIdeal.Launch
import proofs.«404710_j78331613545153_3_alg».proof.Proof.Gen.KernelIdeal.Points
import proofs.«404710_j78331613545153_3_alg».proof.Proof.Gen.KernelIdeal.Frame
import proofs.«404710_j78331613545153_3_alg».proof.Proof.Gen.KernelIdeal.Value
import proofs.«404710_j78331613545153_3_alg».proof.Proof.Gen.ReferenceIdeal
import proofs.«404710_j78331613545153_3_alg».proof.Proof.Gen.ReferenceIdeal.Run
import proofs.«404710_j78331613545153_3_alg».proof.Proof.Gen.ReferenceIdeal.Read
import proofs.«404710_j78331613545153_3_alg».proof.Proof.Gen.Pre_finite_inputs
import proofs.«404710_j78331613545153_3_alg».proof.Proof.KernelValue
import proofs.«404710_j78331613545153_3_alg».proof.Proof.Bridge
import proofs.«404710_j78331613545153_3_alg».proof.Proof.RefValue
import proofs.«404710_j78331613545153_3_alg».proof.Proof.Finite
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel's result array and the reference's end equal, entry by entry. -/
theorem algebraic : Cert.algebraic_KernelIdeal_ReferenceIdeal := by
  intro m ρ m' ρ' hpre hagree
  refine ⟨fun c => Cert.DequantLinear.Accumulate.result m c, Cert.DequantLinear.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, f4⟩ := Cert.DequantLinear.Finite.real_of_pre _ _ _ _ _ (hpre c)
  rw [Cert.ReferenceIdeal.Read.val_main_v28_eq, (hagree c).1, (hagree c).2.1, (hagree c).2.2.1, (hagree c).2.2.2.1,
    (hagree c).2.2.2.2]
  funext i
  obtain ⟨r, n, rfl⟩ : ∃ (r : Fin 8192) (n : Fin 11008), i = ix2 r n := ⟨i 0, i 1, eq_ix2 i⟩
  rw [Cert.DequantLinear.Ref.ref_apply]
  exact (Cert.DequantLinear.Bridge.result_apply m c f0 f2 f3 f4 r n).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
